-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : FVec F S400000x128 .f32) (main_arg2 : FVec F S128x128 .f32) (main_arg3 : FVec F S128x128 .f32) (main_arg4 : FVec F S128x128 .f32) (main_arg5 : FVec F S128x128 .f32) (main_arg6 : IVec S400000 32) (main_arg7 : IVec S400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S2000x128 : Shape := ⟨2, ![2000, 128]⟩
abbrev S2000x384 : Shape := ⟨2, ![2000, 384]⟩
abbrev S_ : Shape := ⟨0, ![]⟩
abbrev S400000x1 : Shape := ⟨2, ![400000, 1]⟩
abbrev S2000x8 : Shape := ⟨2, ![2000, 8]⟩
abbrev S50000x8x16 : Shape := ⟨3, ![50000, 8, 16]⟩
abbrev S400000x8x16 : Shape := ⟨3, ![400000, 8, 16]⟩

abbrev nBuf : Space → Nat
  | .hbm => 59
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S400000, .i32⟩
  | .hbm, ⟨7, _⟩ => ⟨S400000, .i32⟩
  | .hbm, ⟨8, _⟩ => ⟨S128x8, .f32⟩
  | .hbm, ⟨9, _⟩ => ⟨S8x128, .f32⟩
  | .hbm, ⟨10, _⟩ => ⟨S128x384, .f32⟩
  | .hbm, ⟨11, _⟩ => ⟨S50000x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S_, .f32⟩
  | .hbm, ⟨46, _⟩ => ⟨S50000x128, .f32⟩
  | .hbm, ⟨47, _⟩ => ⟨S400000x1, .i32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S400000x1, .i32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x8x16, .f32⟩
  | .hbm, ⟨58, _⟩ => ⟨S400000x8x16, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .f32⟩
  | .local _ .vmem, ⟨4, _⟩ => ⟨S2000x384, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x8, .f32⟩
  | .local _ .vmem, ⟨15, _⟩ => ⟨S8x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S400000 : S_.BroadcastsInDim S400000 (![] : Fin 0 → Fin S400000.rank)
  bcast_S400000_S400000x1_0 : S400000.BroadcastsInDim S400000x1 (![0] : Fin 1 → Fin S400000x1.rank)
  inb_S128x128_S128x128_0_0 : ∀ a, (![0, 0] : Fin 2 → Nat) a + S128x128.size a ≤ S128x128.size a
  h_S128x128 : 0 < S128x128.numel
  shapeCasts_S2000x128_S2000x128 : S2000x128.ShapeCasts S2000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  shapeCasts_S50000x128_S50000x8x16 : S50000x128.ShapeCasts S50000x8x16
  shapeCasts_S400000x128_S400000x8x16 : S400000x128.ShapeCasts S400000x8x16
  dot_S2000x128_S128x384_S2000x384_1_0_0_1_n_n_wf : DotDims.WF S2000x128 S128x384 S2000x384 [1] [0] [0] [1] [] []
  gather_S50000x128_S400000x1_S400000x128_1_0_n_n_0_1_1128_wf : GatherDims.WF S50000x128 S400000x1 S400000x128 [1] [0] [] [0] [] 1 ![1, 128]
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  dot_S2000x8_S8x128_S2000x128_1_0_0_1_n_n_wf : DotDims.WF S2000x8 S8x128 S2000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .f32 = 32 ∨ (Rect.block (s := S50000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S400000x128.size a
  hwx1_0 : ∀ i : grid1.Coords, EltTy.bits .f32 = 32 ∨ (Rect.block (s := S400000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S400000x128.size a
  hwx1_1 : ∀ i : grid1.Coords, EltTy.bits .f32 = 32 ∨ (Rect.block (s := S400000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S400000x128.size a
  hwx1_2 : ∀ i : grid1.Coords, EltTy.bits .f32 = 32 ∨ (Rect.block (s := S400000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S400000x128.size a
  hwx1_3 : ∀ i : grid1.Coords, EltTy.bits .f32 = 32 ∨ (Rect.block (s := S400000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S400000x128.size a
  hwx1_7 : ∀ i : grid1.Coords, EltTy.bits .f32 = 32 ∨ (Rect.block (s := S400000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S400000x128.size a
  hwx1_8 : ∀ i : grid1.Coords, EltTy.bits .f32 = 32 ∨ (Rect.block (s := S400000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S400000x128.size a
  hwx1_9 : ∀ i : grid1.Coords, EltTy.bits .f32 = 32 ∨ (Rect.block (s := S400000x128) S2000x128.size (cc1_transform_9 i) (hinb1_9 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_1) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v26_2) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S50000x8x16 : Shape := ⟨3, ![50000, 8, 16]⟩
abbrev S400000x8x16 : Shape := ⟨3, ![400000, 8, 16]⟩
abbrev S_ : Shape := ⟨0, ![]⟩
abbrev S400000x1 : Shape := ⟨2, ![400000, 1]⟩
abbrev S400000x8 : Shape := ⟨2, ![400000, 8]⟩
abbrev S400000x8x1 : Shape := ⟨3, ![400000, 8, 1]⟩
abbrev S50000x8x1 : Shape := ⟨3, ![50000, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S400000, .i32⟩
  | .hbm, ⟨7, _⟩ => ⟨S400000, .i32⟩
  | .hbm, ⟨8, _⟩ => ⟨S50000x128, .f32⟩
  | .hbm, ⟨9, _⟩ => ⟨S50000x8x16, .f32⟩
  | .hbm, ⟨10, _⟩ => ⟨S50000x128, .f32⟩
  | .hbm, ⟨11, _⟩ => ⟨S50000x8x16, .f32⟩
  | .hbm, ⟨12, _⟩ => ⟨S50000x128, .f32⟩
  | .hbm, ⟨13, _⟩ => ⟨S50000x8x16, .f32⟩
  | .hbm, ⟨14, _⟩ => ⟨S400000x128, .f32⟩
  | .hbm, ⟨15, _⟩ => ⟨S400000x8x16, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x8x16, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x8x16, .f32⟩
  | .hbm, ⟨34, _⟩ => ⟨S400000x8x16, .f32⟩
  | .hbm, ⟨35, _⟩ => ⟨S_, .f32⟩
  | .hbm, ⟨36, _⟩ => ⟨S_, .f32⟩
  | .hbm, ⟨37, _⟩ => ⟨S400000x8x16, .f32⟩
  | .hbm, ⟨38, _⟩ => ⟨S400000x8x16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S400000x8x16, .f32⟩
  | .hbm, ⟨43, _⟩ => ⟨S400000x8x16, .f32⟩
  | .hbm, ⟨44, _⟩ => ⟨S_, .f32⟩
  | .hbm, ⟨45, _⟩ => ⟨S400000x8x16, .f32⟩
  | .hbm, ⟨46, _⟩ => ⟨S400000x8x16, .f32⟩
  | .hbm, ⟨47, _⟩ => ⟨S400000x8x16, .f32⟩
  | .hbm, ⟨48, _⟩ => ⟨S_, .f32⟩
  | .hbm, ⟨49, _⟩ => ⟨S400000x8, .f32⟩
  | .hbm, ⟨50, _⟩ => ⟨S400000x8x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S400000x8x1, .f32⟩
  | .hbm, ⟨55, _⟩ => ⟨S400000x8x1, .f32⟩
  | .hbm, ⟨56, _⟩ => ⟨S_, .f32⟩
  | .hbm, ⟨57, _⟩ => ⟨S400000x8x1, .f32⟩
  | .hbm, ⟨58, _⟩ => ⟨S400000x8x1, .f32⟩
  | .hbm, ⟨59, _⟩ => ⟨S400000x8x1, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x8x16, .f32⟩
  | .hbm, ⟨69, _⟩ => ⟨S400000x8x16, .f32⟩
  | .hbm, ⟨70, _⟩ => ⟨S400000x8x16, .f32⟩
  | .hbm, ⟨71, _⟩ => ⟨S_, .f32⟩
  | .hbm, ⟨72, _⟩ => ⟨S50000x8x16, .f32⟩
  | .hbm, ⟨73, _⟩ => ⟨S400000x1, .i32⟩
  | .hbm, ⟨74, _⟩ => ⟨S50000x8x16, .f32⟩
  | .hbm, ⟨75, _⟩ => ⟨S_, .f32⟩
  | .hbm, ⟨76, _⟩ => ⟨S50000x8x1, .f32⟩
  | .hbm, ⟨77, _⟩ => ⟨S400000x1, .i32⟩
  | .hbm, ⟨78, _⟩ => ⟨S50000x8x1, .f32⟩
  | .hbm, ⟨79, _⟩ => ⟨S_, .f32⟩
  | .hbm, ⟨80, _⟩ => ⟨S50000x8x1, .f32⟩
  | .hbm, ⟨81, _⟩ => ⟨S50000x8x1, .f32⟩
  | .hbm, ⟨82, _⟩ => ⟨S50000x8x16, .f32⟩
  | .hbm, ⟨83, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S400000x128_S400000x8x16 : S400000x128.ShapeCasts S400000x8x16
  bcast_S_S400000 : S_.BroadcastsInDim S400000 (![] : Fin 0 → Fin S400000.rank)
  bcast_S400000_S400000x1_0 : S400000.BroadcastsInDim S400000x1 (![0] : Fin 1 → Fin S400000x1.rank)
  bcast_S_S400000x8x16 : S_.BroadcastsInDim S400000x8x16 (![] : Fin 0 → Fin S400000x8x16.rank)
  reducesTo_S400000x8x16_S400000x8_d2 : S400000x8x16.ReducesTo [2] S400000x8
  h_S_ : 0 < S_.numel
  bcast_S400000x8_S400000x8x1_0_1 : S400000x8.BroadcastsInDim S400000x8x1 (![0, 1] : Fin 2 → Fin S400000x8x1.rank)
  bcast_S_S400000x8x1 : S_.BroadcastsInDim S400000x8x1 (![] : Fin 0 → Fin S400000x8x1.rank)
  bcast_S400000x8x1_S400000x8x16_0_1_2 : S400000x8x1.BroadcastsInDim S400000x8x16 (![0, 1, 2] : Fin 3 → Fin S400000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S400000x128_S128x128_S400000x128_1_0_0_1_n_n_wf : DotDims.WF S400000x128 S128x128 S400000x128 [1] [0] [0] [1] [] []
  gather_S50000x8x16_S400000x1_S400000x8x16_12_0_n_n_0_1_1816_wf : GatherDims.WF S50000x8x16 S400000x1 S400000x8x16 [1, 2] [0] [] [0] [] 1 ![1, 8, 16]
  scatter_S50000x8x16_S400000x1_S400000x8x16_12_0_0_1_wf : ScatterDims.WF S50000x8x16 S400000x1 S400000x8x16 [1, 2] [0] [0] 1
  scatter_S50000x8x1_S400000x1_S400000x8x1_12_0_0_1_wf : ScatterDims.WF S50000x8x1 S400000x1 S400000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x8x16_S400000x1_S400000x8x16_12_0_n_n_0_1_1816 : GatherDims S50000x8x16 S400000x1 S400000x8x16 where
  offsetDims := [1, 2]
  collapsedSliceDims := [0]
  operandBatchingDims := []
  startIndicesBatchingDims := []
  startIndexMap := [0]
  indexVectorDim := 1
  sliceSizes := ![1, 8, 16]
  wf := gather_S50000x8x16_S400000x1_S400000x8x16_12_0_n_n_0_1_1816_wf
def scatter_S50000x8x16_S400000x1_S400000x8x16_12_0_0_1 : ScatterDims S50000x8x16 S400000x1 S400000x8x16 where
  updateWindowDims := [1, 2]
  insertedWindowDims := [0]
  scatterDimsToOperandDims := [0]
  indexVectorDim := 1
  wf := scatter_S50000x8x16_S400000x1_S400000x8x16_12_0_0_1_wf
def scatter_S50000x8x1_S400000x1_S400000x8x1_12_0_0_1 : ScatterDims S50000x8x1 S400000x1 S400000x8x1 where
  updateWindowDims := [1, 2]
  insertedWindowDims := [0]
  scatterDimsToOperandDims := [0]
  indexVectorDim := 1
  wf := scatter_S50000x8x1_S400000x1_S400000x8x1_12_0_0_1_wf

class Facts : Prop extends Facts₀ where

variable [Facts]
-- ==== Proof.K.Region0.lean ====
/-
  Region 0 of the program: the node projection. One grid axis of 25 points; at point t the body multiplies rows
  2000·t … 2000·t + 1999 of the node features (a 2000 × 128 block) by the whole 128 × 384 matrix of the three
  joined weight matrices and stores the 2000 × 384 product as the output's block t. Stated for any float family:
  what the output's staging buffer holds after the body (the one store read back whole), the body's triple, the
  pipeline's proof data at the contents the region is entered with, and the obligation the launch asks of the body
  at every grid point.
-/
import proofs.«101658_j14508399526689_1_alg».proof.Proof.Gen.Kernel.Launch
import proofs.«101658_j14508399526689_1_alg».proof.Proof.Gen.Kernel.Skeleton
import proofs.«101658_j14508399526689_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: it is fetched at the first
    point only, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0_x : Rect S2000x128 := Rect.unit (s := S2000x128) ![0, 0] S2000x128.size inb_S2000x128_S2000x128_0_0
abbrev r0_w : Rect S128x384 := Rect.unit (s := S128x384) ![0, 0] S128x384.size inb_S128x384_S128x384_0_0
abbrev r0_o : Rect S2000x384 := Rect.unit (s := S2000x384) ![0, 0] S2000x384.size inb_S2000x384_S2000x384_0_0

/-- The output's staging buffer after the body: its one store, the product of the two loaded blocks. -/
def out0_2 (x0 : Vec F S2000x128 .f32) (x1 : Vec F S128x384 .f32) : Vec F S2000x384 .f32 :=
  View.canon [⟨r0_o, k0_pay1 (View.ld x0 r0_x) (View.ld x1 r0_w)⟩]

/-- That store covers the buffer. -/
theorem cover0_2 (p0 : Vec F S2000x384 .f32) (y : S2000x384.Idx) :
    ∃ pc ∈ ([⟨r0_o, p0⟩] : List (View.Piece (Elt F) S2000x384 .f32)), y ∈ pc.1.set :=
  View.cover_of_tiled [⟨r0_o, p0⟩] S2000x384.size (by rfl) y

set_option maxHeartbeats 1000000 in
/-- The body on whole staging memrefs: the inputs at x0, x1 and the output at anything run to the inputs as they
    were and the output at out0_2 x0 x1. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer at its block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the edge pass. One grid axis of 200 points; at point t the body works on edges
  2000·t … 2000·t + 1999. It loads that block of the gathered key rows, of the gathered query rows, of the gathered
  value rows and of the edge features, and the whole edge weight matrix and the two head-indicator matrices; it
  stores three 2000 × 128 blocks: the clipped, gated scores; the value rows times the per-head weights; and the
  per-head weights spread back over the columns. Stated for any float family: what each output's staging buffer
  holds after the body, the body's triple, the pipeline's proof data at the contents the region is entered with,
  and the obligation the launch asks of the body at every grid point.
-/
import proofs.«101658_j14508399526689_1_alg».proof.Proof.Gen.Kernel.Launch
import proofs.«101658_j14508399526689_1_alg».proof.Proof.Gen.Kernel.Skeleton
import proofs.«101658_j14508399526689_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not (the three matrices are
    fetched at the first point only and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1_e : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_m : Rect S128x8 := Rect.unit (s := S128x8) ![0, 0] S128x8.size inb_S128x8_S128x8_0_0
abbrev r1_mt : Rect S8x128 := Rect.unit (s := S8x128) ![0, 0] S8x128.size inb_S8x128_S8x128_0_0

/-- The score window's staging buffer after the body: its one store. (x0 … x6 are the blocks of the key rows, the
    query rows, the value rows, the edge features, the edge weights and the two indicator matrices.) -/
def out1_7 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay1 (View.ld x3 r1_e) (View.ld x4 r1_w) (View.ld x0 r1_e) (View.ld x1 r1_e)⟩]
/-- The weighted-value window's staging buffer after the body. -/
def out1_8 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay3 (View.ld x3 r1_e) (View.ld x4 r1_w) (View.ld x0 r1_e) (View.ld x1 r1_e) (View.ld x2 r1_e) (View.ld x5 r1_m) (View.ld x6 r1_mt)⟩]
/-- The spread-weights window's staging buffer after the body. -/
def out1_9 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay2 (View.ld x3 r1_e) (View.ld x4 r1_w) (View.ld x0 r1_e) (View.ld x1 r1_e) (View.ld x5 r1_m) (View.ld x6 r1_mt)⟩]

/-- One whole store covers a 2000 × 128 buffer. -/
theorem cover1 (p0 : Vec F S2000x128 .f32) (y : S2000x128.Idx) :
    ∃ pc ∈ ([⟨r1_e, p0⟩] : List (View.Piece (Elt F) S2000x128 .f32)), y ∈ pc.1.set :=
  View.cover_of_tiled [⟨r1_e, p0⟩] S2000x128.size (by rfl) y

set_option maxHeartbeats 4000000 in
/-- The body on whole staging memrefs: the inputs at x0 … x6 and the outputs at anything run to the inputs as they
    were and each output at its out1_w of the inputs. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S128x128 .f32) (harg5 : arg5.IsWhole)
    (arg6 : Memref sig .tc .vmem S128x8 .f32) (harg6 : arg6.IsWhole)
    (arg7 : Memref sig .tc .vmem S8x128 .f32) (harg7 : arg7.IsWhole)
    (arg8 : Memref sig .tc .vmem S2000x128 .f32) (harg8 : arg8.IsWhole)
    (arg9 : Memref sig .tc .vmem S2000x128 .f32) (harg9 : arg9.IsWhole)
    (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  iexists _; isplitr
  swap; · iexact H9
  ipureintro
  exact View.read_writes_eq_canon _ _ _ (cover1 _)

/-- The proof data of pipeline 1 on core c: the arrays as the region finds them; after the body at point t each
    input's buffer at its block and each output's at its out1_w of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so sound_kernel1 applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program, for any float family: host operations, the node projection region, host
  operations, the edge region, host operations. The contents of every unscoped buffer at each of the six
  boundaries are written as a fold from the launch memory: a stretch of host operations applies them; a region
  leaves its arrays at what its pipeline's write-backs make of them and every other buffer alone. Each region is
  a segment over the thread state "every unscoped buffer at the boundary's contents, the generator register at some
  state, nothing owed". The launch then gives: every weakly fair execution terminates without a fault, and every
  unscoped buffer ends at the last boundary's contents. No host operation and no region writes an argument, so the
  fold at an argument walks back to the launch memory: the frame.
-/
import proofs.«101658_j14508399526689_1_alg».proof.Proof.K.Region0
import proofs.«101658_j14508399526689_1_alg».proof.Proof.K.Region1
import proofs.«101658_j14508399526689_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first stretch of host operations (the two indicator matrices and the joined weights are made). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the node projection region: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the three projections cut out of the product, the node numbers wrapped, the rows
    gathered). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the edge region: its three output arrays at what the write-backs leave. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch (the two sums into node rows, the quotient, the two results laid out by head). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide : main_arg5 ∉ hostOps2_W)
    _ = W3 m c (Proc.devRef .tc main_arg5) := (W4_arr m c 4).trans (((dat1 (V3 m) c).arrAt_in 4 rfl _).trans (A_eq1 (V3 m) c 4))
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left at the
    contents after it. Its arrays are split out of the unscoped buffers and put back at what the pipeline leaves in
    them; the generator register goes into the pipeline's invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the pipeline leaves in
    them; the generator register goes into the pipeline's invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and the eight argument arrays end as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩)
    (run_all m ρ)

end Cert.Kernel.Hand

end
-- ==== Proof.KI.Region0.lean ====
/-
  Region 0 of the program: the node projection. One grid axis of 25 points; at point t the body multiplies rows
  2000·t … 2000·t + 1999 of the node features (a 2000 × 128 block) by the whole 128 × 384 matrix of the three
  joined weight matrices and stores the 2000 × 384 product as the output's block t. Stated for any float family:
  what the output's staging buffer holds after the body (the one store read back whole), the body's triple, the
  pipeline's proof data at the contents the region is entered with, and the obligation the launch asks of the body
  at every grid point.
-/
import proofs.«101658_j14508399526689_1_alg».proof.Proof.Gen.KernelIdeal.Launch
import proofs.«101658_j14508399526689_1_alg».proof.Proof.Gen.KernelIdeal.Skeleton
import proofs.«101658_j14508399526689_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: it is fetched at the first
    point only, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0_x : Rect S2000x128 := Rect.unit (s := S2000x128) ![0, 0] S2000x128.size inb_S2000x128_S2000x128_0_0
abbrev r0_w : Rect S128x384 := Rect.unit (s := S128x384) ![0, 0] S128x384.size inb_S128x384_S128x384_0_0
abbrev r0_o : Rect S2000x384 := Rect.unit (s := S2000x384) ![0, 0] S2000x384.size inb_S2000x384_S2000x384_0_0

/-- The output's staging buffer after the body: its one store, the product of the two loaded blocks. -/
def out0_2 (x0 : Vec F S2000x128 .f32) (x1 : Vec F S128x384 .f32) : Vec F S2000x384 .f32 :=
  View.canon [⟨r0_o, k0_pay1 (View.ld x0 r0_x) (View.ld x1 r0_w)⟩]

/-- That store covers the buffer. -/
theorem cover0_2 (p0 : Vec F S2000x384 .f32) (y : S2000x384.Idx) :
    ∃ pc ∈ ([⟨r0_o, p0⟩] : List (View.Piece (Elt F) S2000x384 .f32)), y ∈ pc.1.set :=
  View.cover_of_tiled [⟨r0_o, p0⟩] S2000x384.size (by rfl) y

set_option maxHeartbeats 1000000 in
/-- The body on whole staging memrefs: the inputs at x0, x1 and the output at anything run to the inputs as they
    were and the output at out0_2 x0 x1. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer at its block and the output's at out0_2 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the edge pass. One grid axis of 200 points; at point t the body works on edges
  2000·t … 2000·t + 1999. It loads that block of the gathered key rows, of the gathered query rows, of the gathered
  value rows and of the edge features, and the whole edge weight matrix and the two head-indicator matrices; it
  stores three 2000 × 128 blocks: the clipped, gated scores; the value rows times the per-head weights; and the
  per-head weights spread back over the columns. Stated for any float family: what each output's staging buffer
  holds after the body, the body's triple, the pipeline's proof data at the contents the region is entered with,
  and the obligation the launch asks of the body at every grid point.
-/
import proofs.«101658_j14508399526689_1_alg».proof.Proof.Gen.KernelIdeal.Launch
import proofs.«101658_j14508399526689_1_alg».proof.Proof.Gen.KernelIdeal.Skeleton
import proofs.«101658_j14508399526689_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not (the three matrices are
    fetched at the first point only and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1_e : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_m : Rect S128x8 := Rect.unit (s := S128x8) ![0, 0] S128x8.size inb_S128x8_S128x8_0_0
abbrev r1_mt : Rect S8x128 := Rect.unit (s := S8x128) ![0, 0] S8x128.size inb_S8x128_S8x128_0_0

/-- The score window's staging buffer after the body: its one store. (x0 … x6 are the blocks of the key rows, the
    query rows, the value rows, the edge features, the edge weights and the two indicator matrices.) -/
def out1_7 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay1 (View.ld x3 r1_e) (View.ld x4 r1_w) (View.ld x0 r1_e) (View.ld x1 r1_e)⟩]
/-- The weighted-value window's staging buffer after the body. -/
def out1_8 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay3 (View.ld x3 r1_e) (View.ld x4 r1_w) (View.ld x0 r1_e) (View.ld x1 r1_e) (View.ld x2 r1_e) (View.ld x5 r1_m) (View.ld x6 r1_mt)⟩]
/-- The spread-weights window's staging buffer after the body. -/
def out1_9 (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) : Vec F S2000x128 .f32 :=
  View.canon [⟨r1_e, k1_pay2 (View.ld x3 r1_e) (View.ld x4 r1_w) (View.ld x0 r1_e) (View.ld x1 r1_e) (View.ld x5 r1_m) (View.ld x6 r1_mt)⟩]

/-- One whole store covers a 2000 × 128 buffer. -/
theorem cover1 (p0 : Vec F S2000x128 .f32) (y : S2000x128.Idx) :
    ∃ pc ∈ ([⟨r1_e, p0⟩] : List (View.Piece (Elt F) S2000x128 .f32)), y ∈ pc.1.set :=
  View.cover_of_tiled [⟨r1_e, p0⟩] S2000x128.size (by rfl) y

set_option maxHeartbeats 4000000 in
/-- The body on whole staging memrefs: the inputs at x0 … x6 and the outputs at anything run to the inputs as they
    were and each output at its out1_w of the inputs. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S2000x128 .f32) (harg4 : arg4.IsWhole)
    (arg5 : Memref sig .tc .vmem S128x128 .f32) (harg5 : arg5.IsWhole)
    (arg6 : Memref sig .tc .vmem S128x8 .f32) (harg6 : arg6.IsWhole)
    (arg7 : Memref sig .tc .vmem S8x128 .f32) (harg7 : arg7.IsWhole)
    (arg8 : Memref sig .tc .vmem S2000x128 .f32) (harg8 : arg8.IsWhole)
    (arg9 : Memref sig .tc .vmem S2000x128 .f32) (harg9 : arg9.IsWhole)
    (arg10 : Memref sig .tc .vmem S2000x128 .f32) (harg10 : arg10.IsWhole)
    (x0 : Vec F S2000x128 .f32) (x1 : Vec F S2000x128 .f32) (x2 : Vec F S2000x128 .f32) (x3 : Vec F S2000x128 .f32) (x4 : Vec F S128x128 .f32) (x5 : Vec F S128x8 .f32) (x6 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  iexists _; isplitr
  swap; · iexact H9
  ipureintro
  exact View.read_writes_eq_canon _ _ _ (cover1 _)

/-- The proof data of pipeline 1 on core c: the arrays as the region finds them; after the body at point t each
    input's buffer at its block and each output's at its out1_w of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so sound_kernel1 applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program, for any float family: host operations, the node projection region, host
  operations, the edge region, host operations. The contents of every unscoped buffer at each of the six
  boundaries are written as a fold from the launch memory: a stretch of host operations applies them; a region
  leaves its arrays at what its pipeline's write-backs make of them and every other buffer alone. Each region is
  a segment over the thread state "every unscoped buffer at the boundary's contents, the generator register at some
  state, nothing owed". The launch then gives: every weakly fair execution terminates without a fault, and every
  unscoped buffer ends at the last boundary's contents. No host operation and no region writes an argument, so the
  fold at an argument walks back to the launch memory: the frame.
-/
import proofs.«101658_j14508399526689_1_alg».proof.Proof.KI.Region0
import proofs.«101658_j14508399526689_1_alg».proof.Proof.KI.Region1
import proofs.«101658_j14508399526689_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first stretch of host operations (the two indicator matrices and the joined weights are made). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the node projection region: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the three projections cut out of the product, the node numbers wrapped, the rows
    gathered). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the edge region: its three output arrays at what the write-backs leave. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last stretch (the two sums into node rows, the quotient, the two results laid out by head). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide : main_arg5 ∉ hostOps2_W)
    _ = W3 m c (Proc.devRef .tc main_arg5) := (W4_arr m c 4).trans (((dat1 (V3 m) c).arrAt_in 4 rfl _).trans (A_eq1 (V3 m) c 4))
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left at the
    contents after it. Its arrays are split out of the unscoped buffers and put back at what the pipeline leaves in
    them; the generator register goes into the pipeline's invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the pipeline leaves in
    them; the generator register goes into the pipeline's invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and the eight argument arrays end as
    launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩)
    (run_all m ρ)

end Cert.KernelIdeal.Hand

end
-- ==== Proof.LibIndexWrap.lean ====
import Idealize.ShloMosaic.PureOps
import Idealize.ShloMosaic.Lib.ValueIdx
import Idealize.ShloMosaic.Lib.Pipeline.Value

/-!
# A signed index wrapped by its axis extent, and the two-column index array built from it

An index array `ind : i32[N, 2]` is turned into scatter start indices column by column: column `k` is cut out
(`N × 1`), flattened to `N`, every negative entry has the axis extent `H_k` added to it, the result is made an
`N × 1` column again and the two columns are joined along axis 1. Read at row `j`, the joined array holds the
wrapped entry of each column: nothing else of `ind` is looked at, and no index set is enumerated.
-/

namespace Idealize.ShloMosaic.IndexWrap

open Idealize.ShloMosaic Idealize.ShloMosaic.ValueIdx

/-- One index wrapped by the extent `H`: `v + H` where `v` is negative as a signed word, `v` otherwise. Spelled with
    the scalar operations a pointwise `select (cmpi slt · 0) (addi · H) ·` applies at each element, so that the array
    form below reads at an element as `wrap` by unfolding alone; `wrap_eq_ite` is the `if` form. -/
def wrap (H v : BitVec 32) : BitVec 32 :=
  Scalar.select (IntOp.cmpi .slt v 0#32) (IntOp.addi v H) v

/-- `wrap` as a conditional on the signed comparison with zero. -/
theorem wrap_eq_ite (H v : BitVec 32) : wrap H v = if v.slt 0#32 then v + H else v := by
  unfold wrap Scalar.select IntOp.cmpi IntOp.addi
  cases h : v.slt 0#32
  · rfl
  · rfl

/-- A non-negative index is left alone, whatever the extent. -/
theorem wrap_of_nonneg (H v : BitVec 32) (h : 0 ≤ v.toInt) : wrap H v = v := by
  rw [wrap_eq_ite]
  have hs : v.slt 0#32 = false := by
    rw [BitVec.slt, BitVec.toInt_zero]
    exact decide_eq_false (Int.not_lt.mpr h)
  rw [hs]
  rfl

/-- A negative index has the extent added. -/
theorem wrap_of_neg (H v : BitVec 32) (h : v.toInt < 0) : wrap H v = v + H := by
  rw [wrap_eq_ite]
  have hs : v.slt 0#32 = true := by
    rw [BitVec.slt, BitVec.toInt_zero]
    exact decide_eq_true h
  rw [hs]
  rfl

section Columns
variable {N : Nat}

/-- Column `k` of an `N × 2` array, cut out and flattened, read at `j`: the array at `(j, k)`. -/
theorem column_apply (o : Nat) (ind : IVec ⟨2, ![N, 2]⟩ 32)
    (hs : (⟨2, ![N, 2]⟩ : Shape).Slices ![0, o] ⟨2, ![N, 1]⟩)
    (hc : (⟨2, ![N, 1]⟩ : Shape).ShapeCasts ⟨1, ![N]⟩) (j : Fin N) (k : Fin 2) (hk : k.val = o) :
    shapeCast ⟨1, ![N]⟩ (extractStridedSlice ⟨2, ![N, 1]⟩ ![0, o] ind hs) hc (ix1 j) = ind (ix2 j k) := by
  refine (shapeCast_apply _ hc (ix1 j) (ix2 j (0 : Fin 1)) ?_).trans ?_
  · rw [Shape.rowMajor_val_two, Shape.rowMajor_val_one]
    show j.val * 1 + 0 = j.val
    omega
  · refine extractStridedSlice_apply ![0, o] ind hs (ix2 j (0 : Fin 1)) (ix2 j k) fun a => ?_
    match a with
    | ⟨0, _⟩ => exact (Nat.zero_add _).symm
    | ⟨1, _⟩ => show k.val = o + 0; omega

/-- A scalar constant broadcast to a vector reads as the constant everywhere. -/
theorem splat_apply (c : BitVec 32) (hb : (⟨0, ![]⟩ : Shape).BroadcastsInDim ⟨1, ![N]⟩ (![] : Fin 0 → Fin 1))
    (i : (⟨1, ![N]⟩ : Shape).Idx) :
    broadcastInDim (⟨1, ![N]⟩ : Shape) (![] : Fin 0 → Fin 1) hb (constantI ⟨0, ![]⟩ 32 c) i = c := rfl

/-- A vector made an `N × 1` column reads, at `(j, 0)`, the vector at `j`. -/
theorem asColumn_apply {α : Type} (v : (⟨1, ![N]⟩ : Shape).Idx → α)
    (hb : (⟨1, ![N]⟩ : Shape).BroadcastsInDim ⟨2, ![N, 1]⟩ (![0] : Fin 1 → Fin 2)) (j : Fin N) (u : Fin 1) :
    broadcastInDim (⟨2, ![N, 1]⟩ : Shape) (![0] : Fin 1 → Fin 2) hb v (ix2 j u) = v (ix1 j) := by
  refine broadcastInDim_apply _ hb v (ix2 j u) (ix1 j) fun a => ?_
  match a with
  | ⟨0, _⟩ =>
    show j.val = if N = 1 then 0 else j.val
    have := j.isLt
    split <;> omega

/-- The wrapped column `k`, as the program spells it, read at `j`. -/
theorem wrappedColumn_apply (o : Nat) (H : BitVec 32) (ind : IVec ⟨2, ![N, 2]⟩ 32)
    (hs : (⟨2, ![N, 2]⟩ : Shape).Slices ![0, o] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin 1))
    (j : Fin N) (k : Fin 2) (hk : k.val = o) :
    select
        (cmpi .slt (shapeCast ⟨1, ![N]⟩ (extractStridedSlice ⟨2, ![N, 1]⟩ ![0, o] ind hs) hc)
          (broadcastInDim (⟨1, ![N]⟩ : Shape) (![] : Fin 0 → Fin 1) hb (constantI ⟨0, ![]⟩ 32 0#32)))
        (addi (shapeCast ⟨1, ![N]⟩ (extractStridedSlice ⟨2, ![N, 1]⟩ ![0, o] ind hs) hc)
          (broadcastInDim (⟨1, ![N]⟩ : Shape) (![] : Fin 0 → Fin 1) hb (constantI ⟨0, ![]⟩ 32 H)))
        (shapeCast ⟨1, ![N]⟩ (extractStridedSlice ⟨2, ![N, 1]⟩ ![0, o] ind hs) hc) (ix1 j)
      = wrap H (ind (ix2 j k)) := by
  show Scalar.select (IntOp.cmpi .slt (shapeCast ⟨1, ![N]⟩ (extractStridedSlice ⟨2, ![N, 1]⟩ ![0, o] ind hs) hc (ix1 j)) 0#32)
      (IntOp.addi (shapeCast ⟨1, ![N]⟩ (extractStridedSlice ⟨2, ![N, 1]⟩ ![0, o] ind hs) hc (ix1 j)) H)
      (shapeCast ⟨1, ![N]⟩ (extractStridedSlice ⟨2, ![N, 1]⟩ ![0, o] ind hs) hc (ix1 j)) = _
  rw [column_apply o ind hs hc j k hk]
  rfl

/-- The joined array of the two wrapped columns, as the programs print it, read at row `j`: column 0 holds the row
    index wrapped by `H₀`, column 1 the column index wrapped by `H₁`. -/
theorem wrapped_pair_apply (H₀ H₁ : BitVec 32) (ind : IVec ⟨2, ![N, 2]⟩ 32)
    (hs0 : (⟨2, ![N, 2]⟩ : Shape).Slices ![0, 0] ⟨2, ![N, 1]⟩)
    (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin 1))
    (hcol : (⟨1, ![N]⟩ : Shape).BroadcastsInDim ⟨2, ![N, 1]⟩ (![0] : Fin 1 → Fin 2))
    (hcat : Shape.Concatenates [(⟨2, ![N, 1]⟩ : Shape), ⟨2, ![N, 1]⟩] ⟨2, ![N, 2]⟩ 1) (j : Fin N) :
    (concatenate (⟨2, ![N, 2]⟩ : Shape) 1
        [⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 H₀)))
              (shapeCast ⟨1, ![N]⟩ (extractStridedSlice ⟨2, ![N, 1]⟩ ![0, 0] ind hs0) hc))⟩,
         ⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 H₁)))
              (shapeCast ⟨1, ![N]⟩ (extractStridedSlice ⟨2, ![N, 1]⟩ ![0, 1] ind hs1) hc))⟩]
        hcat (ix2 j (0 : Fin 2)) = wrap H₀ (ind (ix2 j 0)))
    ∧ (concatenate (⟨2, ![N, 2]⟩ : Shape) 1
        [⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 H₀)))
              (shapeCast ⟨1, ![N]⟩ (extractStridedSlice ⟨2, ![N, 1]⟩ ![0, 0] ind hs0) hc))⟩,
         ⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 H₁)))
              (shapeCast ⟨1, ![N]⟩ (extractStridedSlice ⟨2, ![N, 1]⟩ ![0, 1] ind hs1) hc))⟩]
        hcat (ix2 j (1 : Fin 2)) = wrap H₁ (ind (ix2 j 1))) := by
  constructor
  · refine (concatenate_pair_apply_left 1 _ _ hcat (ix2 j (0 : Fin 2)) rfl (ix2 j (0 : Fin 1)) fun b => ?_).trans ?_
    · match b with
      | ⟨0, _⟩ => rfl
      | ⟨1, _⟩ => rfl
    · rw [asColumn_apply _ hcol j (0 : Fin 1)]
      exact wrappedColumn_apply 0 H₀ ind hs0 hc hb j 0 rfl
  · refine (concatenate_pair_apply_right 1 _ _ hcat (ix2 j (1 : Fin 2)) rfl rfl (ix2 j (0 : Fin 1)) (fun b hb' => ?_) ?_).trans ?_
    · match b with
      | ⟨0, _⟩ => rfl
      | ⟨1, _⟩ => exact absurd rfl hb'
    · rfl
    · rw [asColumn_apply _ hcol j (0 : Fin 1)]
      exact wrappedColumn_apply 1 H₁ ind hs1 hc hb j 1 rfl

end Columns

end Idealize.ShloMosaic.IndexWrap
-- ==== Proof.Spec.lean ====
/-
  What the two programs compute, written once over the extended reals as functions of the arguments.

  X is the 50000 × 128 table of node features, EF the 400000 × 128 table of edge features, Wq, Wk, Wv, We the four
  128 × 128 weight matrices, src and dst the two lists of 400000 node numbers (32-bit words). A node number used
  to READ a row is wrapped (50000 is added to a negative one) and then clamped into 0 … 49999; a node number
  used to ADD INTO a row is taken as it is, and the addition is dropped when it names no row. The 128 feature
  columns are 8 heads of 16 columns: column 16·h + d is head h, place d.

  score(e, f)  = clip(K[src e, f] · Q[dst e, f] · ¼) · (EF · We)(e, f)          — the updated edge features
  attn(e, h)   = exp (clip (Σ_d score(e, 16h + d)))
  wV(n, f)     = Σ over the edges e landing on node n of V[src e, f] · attn(e, f / 16)
  z(n, h)      = Σ over the same edges of attn(e, h)
  h_out(n,h,d) = wV(n, 16h + d) / (z(n, h) + ε)

  where Q, K, V = X · Wq, X · Wk, X · Wv and clip cuts into [−5, 5].
-/
import Idealize.ShloMosaic.PureOps.Ideal
import Idealize.ShloMosaic.Lib.ValueIdx
import proofs.«101658_j14508399526689_1_alg».proof.Proof.LibIndexWrap

noncomputable section

open scoped BigOperators

namespace Cert.Spec

open Idealize.ShloMosaic Idealize.ShloMosaic.ValueIdx

/-- A row of the node table named by a word that is READ: wrapped by 50000 where negative, then clamped. -/
def gRow (v : BitVec 32) : Fin 50000 :=
  ⟨min (IndexWrap.wrap 50000#32 v).toInt.toNat (50000 - 1), by omega⟩

/-- A row of the node table named by a word that is ADDED INTO: the word read signed if that is a row, else none. -/
def lands (v : BitVec 32) : Option (Fin 50000) :=
  if h : 0 ≤ v.toInt ∧ v.toInt < (50000 : Int) then some ⟨v.toInt.toNat, by omega⟩ else none

/-- Cutting into [−5, 5]: first from below, then from above. -/
def clip5 (x : EReal) : EReal :=
  min (Ideal.ofBits .f32 0x40A00000#32) (max (Ideal.ofBits .f32 0xC0A00000#32) x)

/-- Column 16·h + d. -/
def headIx (h : Fin 8) (d : Fin 16) : Fin 128 := ⟨16 * h.val + d.val, by omega⟩

/-- The head of a column. -/
def headOf (f : Fin 128) : Fin 8 := ⟨f.val / 16, by omega⟩

/-- Rows of A times the matrix W. -/
def proj {R : Nat} (A : Fin R → Fin 128 → EReal) (W : Fin 128 → Fin 128 → EReal) (n : Fin R) (f : Fin 128) : EReal :=
  ∑ k : Fin 128, A n k * W k f

section
variable (X : Fin 50000 → Fin 128 → EReal) (EF : Fin 400000 → Fin 128 → EReal)
  (Wq Wk Wv We : Fin 128 → Fin 128 → EReal) (src dst : Fin 400000 → BitVec 32)

def score (e : Fin 400000) (f : Fin 128) : EReal :=
  clip5 (proj X Wk (gRow (src e)) f * proj X Wq (gRow (dst e)) f * Ideal.ofBits .f32 0x3E800000#32) * proj EF We e f

def attn (e : Fin 400000) (h : Fin 8) : EReal :=
  Ideal.exp (clip5 (∑ d : Fin 16, score X EF Wq Wk We src dst e (headIx h d)))

def contrib (e : Fin 400000) (f : Fin 128) : EReal :=
  proj X Wv (gRow (src e)) f * attn X EF Wq Wk We src dst e (headOf f)

def wV (n : Fin 50000) (f : Fin 128) : EReal :=
  ∑ e ∈ Finset.univ.filter (fun e : Fin 400000 => lands (dst e) = some n), contrib X EF Wq Wk Wv We src dst e f

def zN (n : Fin 50000) (h : Fin 8) : EReal :=
  ∑ e ∈ Finset.univ.filter (fun e : Fin 400000 => lands (dst e) = some n), attn X EF Wq Wk We src dst e h

/-- The first result, at node n, head h, place d. -/
def hOut (n : Fin 50000) (h : Fin 8) (d : Fin 16) : EReal :=
  Ideal.div (wV X EF Wq Wk Wv We src dst n (headIx h d)) (zN X EF Wq Wk We src dst n h + Ideal.ofBits .f32 0x358637BD#32)

/-- The second result, at edge e, head h, place d. -/
def eOut (e : Fin 400000) (h : Fin 8) (d : Fin 16) : EReal :=
  score X EF Wq Wk We src dst e (headIx h d)

end

end Cert.Spec

end
-- ==== Proof.KI.Args.lean ====
/-
  The eight arguments as the launch memory holds them, at their literal types and as functions of plain
  coordinates: the form the specification takes them in.
-/
import proofs.«101658_j14508399526689_1_alg».proof.Proof.KI.Run
import proofs.«101658_j14508399526689_1_alg».proof.Proof.Spec
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

abbrev argNode (c : Dev nD) : S50000x128.Idx → EReal := m ((c : Thread nD τ).loc main_arg0)
abbrev argEdge (c : Dev nD) : S400000x128.Idx → EReal := m ((c : Thread nD τ).loc main_arg1)
abbrev argWq (c : Dev nD) : S128x128.Idx → EReal := m ((c : Thread nD τ).loc main_arg2)
abbrev argWk (c : Dev nD) : S128x128.Idx → EReal := m ((c : Thread nD τ).loc main_arg3)
abbrev argWv (c : Dev nD) : S128x128.Idx → EReal := m ((c : Thread nD τ).loc main_arg4)
abbrev argWe (c : Dev nD) : S128x128.Idx → EReal := m ((c : Thread nD τ).loc main_arg5)
abbrev argSrc (c : Dev nD) : S400000.Idx → BitVec 32 := m ((c : Thread nD τ).loc main_arg6)
abbrev argDst (c : Dev nD) : S400000.Idx → BitVec 32 := m ((c : Thread nD τ).loc main_arg7)

/-- The same over plain coordinates. -/
def aX (c : Dev nD) : Fin 50000 → Fin 128 → EReal := fun n k => argNode m c (ix2 n k)
def aEF (c : Dev nD) : Fin 400000 → Fin 128 → EReal := fun e k => argEdge m c (ix2 e k)
def aWq (c : Dev nD) : Fin 128 → Fin 128 → EReal := fun k f => argWq m c (ix2 k f)
def aWk (c : Dev nD) : Fin 128 → Fin 128 → EReal := fun k f => argWk m c (ix2 k f)
def aWv (c : Dev nD) : Fin 128 → Fin 128 → EReal := fun k f => argWv m c (ix2 k f)
def aWe (c : Dev nD) : Fin 128 → Fin 128 → EReal := fun k f => argWe m c (ix2 k f)
def aSrc (c : Dev nD) : Fin 400000 → BitVec 32 := fun e => argSrc m c (ix1 e)
def aDst (c : Dev nD) : Fin 400000 → BitVec 32 := fun e => argDst m c (ix1 e)

end Cert.KernelIdeal.Hand

end
-- ==== Proof.KI.Final1.lean ====
/-
  The edge region's three output arrays after the region, read at an entry: the 200 blocks written back tile each
  400000 × 128 array. With ks, qd, vs the gathered key, query and value rows, ef the edge features, we the edge
  weights and M, MT the two indicator matrices as the region finds them:
    scores(e, f)  = clip(ks(e,f) · qd(e,f) · ¼) · Σ_k ef(e,k) · we(k,f)
    spread(e, f)  = Σ_h exp(clip(Σ_k scores(e,k) · M(k,h))) · MT(h,f)
    weighted(e,f) = vs(e,f) · spread(e,f).
  The way there: each of the body's three matrix products is read at an entry as the sum over its contracted axis;
  with that the three stored payloads are read at an entry of the block; the block of each row window at point t is
  rows 2000·t … 2000·t + 1999 of its array and the block of each matrix is the matrix; so what point t writes back is
  block t of one function of the arrays, and the 200 blocks cover every row.
-/
import proofs.«101658_j14508399526689_1_alg».proof.Proof.KI.Region1
import proofs.«101658_j14508399526689_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's three matrix products, read at an entry

Each contracts the left operand's columns against the right operand's rows. For each: where the two operand indices
sit, axis by axis, and then the product into the zero accumulator at entry (p, q) as a sum over the contracted axis. -/

/-! ### Edge features (2000 × 128) by edge weights (128 × 128) -/

theorem lhs_featW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_featW_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_featW_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_featW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of a 2000 × 128 by 128 × 128 product: row p against column q. -/
theorem matmul_featW_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_featW_0 _ _
    | ⟨1, _⟩ => exact (lhs_featW_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_featW_0 _ _).trans hk
    | ⟨1, _⟩ => exact rhs_featW_1 _ _)
  rw [el, er]

/-! ### Scores (2000 × 128) by the head indicator (128 × 8) -/

theorem lhs_heads_0 (i : S2000x8.Idx) (q : dot_S2000x128_S128x8_S2000x8_1_0_0_1_n_n.contr.Idx) :
    (dot_S2000x128_S128x8_S2000x8_1_0_0_1_n_n.lhsIdx i q 0).val = (i 0).val := by
  unfold DotDims.lhsIdx
  rw [dif_neg (show ¬(0 : Fin S2000x128.rank) ∈ dot_S2000x128_S128x8_S2000x8_1_0_0_1_n_n.lhsBatch by decide), dif_pos (show (0 : Fin S2000x128.rank) ∈ dot_S2000x128_S128x8_S2000x8_1_0_0_1_n_n.lhsNonContracting by decide)]
  rfl
theorem lhs_heads_1 (i : S2000x8.Idx) (q : dot_S2000x128_S128x8_S2000x8_1_0_0_1_n_n.contr.Idx) :
    (dot_S2000x128_S128x8_S2000x8_1_0_0_1_n_n.lhsIdx i q 1).val = (q ⟨0, by decide⟩).val :=
  dot_S2000x128_S128x8_S2000x8_1_0_0_1_n_n.lhsIdx_val_of_single rfl i q
theorem rhs_heads_0 (i : S2000x8.Idx) (q : dot_S2000x128_S128x8_S2000x8_1_0_0_1_n_n.contr.Idx) :
    (dot_S2000x128_S128x8_S2000x8_1_0_0_1_n_n.rhsIdx i q 0).val = (q ⟨0, by decide⟩).val :=
  dot_S2000x128_S128x8_S2000x8_1_0_0_1_n_n.rhsIdx_val_of_single rfl i q
theorem rhs_heads_1 (i : S2000x8.Idx) (q : dot_S2000x128_S128x8_S2000x8_1_0_0_1_n_n.contr.Idx) :
    (dot_S2000x128_S128x8_S2000x8_1_0_0_1_n_n.rhsIdx i q 1).val = (i 1).val := by
  unfold DotDims.rhsIdx
  rw [dif_neg (show ¬(1 : Fin S128x8.rank) ∈ dot_S2000x128_S128x8_S2000x8_1_0_0_1_n_n.rhsBatch by decide), dif_pos (show (1 : Fin S128x8.rank) ∈ dot_S2000x128_S128x8_S2000x8_1_0_0_1_n_n.rhsNonContracting by decide)]
  rfl

/-- Entry (p, h) of a 2000 × 128 by 128 × 8 product: row p against column h. -/
theorem matmul_heads_apply {φ₁ φ₂ : FTy} (a : FVec Ideal S2000x128 φ₁) (b : FVec Ideal S128x8 φ₂) (p : Fin 2000) (h : Fin 8) :
    matmul dot_S2000x128_S128x8_S2000x8_1_0_0_1_n_n none a b (constant S2000x8 .f32 0x00000000#32) (ix2 p h)
      = ∑ k : Fin 128, a (ix2 p k) * b (ix2 k h) := by
  simp only [matmul]
  rw [Ideal.matmul_constant_zero_apply, ← Equiv.sum_comp (contrEquiv1 dot_S2000x128_S128x8_S2000x8_1_0_0_1_n_n 128 rfl rfl).symm]
  refine Finset.sum_congr rfl fun k _ => ?_
  have hk := contrEquiv1_symm_val dot_S2000x128_S128x8_S2000x8_1_0_0_1_n_n 128 rfl rfl k
  have el : dot_S2000x128_S128x8_S2000x8_1_0_0_1_n_n.lhsIdx (ix2 p h) ((contrEquiv1 dot_S2000x128_S128x8_S2000x8_1_0_0_1_n_n 128 rfl rfl).symm k) = ix2 p k := funext fun a => Fin.ext (by
    match a with
    | ⟨0, _⟩ => exact lhs_heads_0 _ _
    | ⟨1, _⟩ => exact (lhs_heads_1 _ _).trans hk)
  have er : dot_S2000x128_S128x8_S2000x8_1_0_0_1_n_n.rhsIdx (ix2 p h) ((contrEquiv1 dot_S2000x128_S128x8_S2000x8_1_0_0_1_n_n 128 rfl rfl).symm k) = ix2 k h := funext fun a => Fin.ext (by
    match a with
    | ⟨0, _⟩ => exact (rhs_heads_0 _ _).trans hk
    | ⟨1, _⟩ => exact rhs_heads_1 _ _)
  rw [el, er]

/-! ### Head weights (2000 × 8) by the transposed indicator (8 × 128) -/

theorem lhs_spread_0 (i : S2000x128.Idx) (q : dot_S2000x8_S8x128_S2000x128_1_0_0_1_n_n.contr.Idx) :
    (dot_S2000x8_S8x128_S2000x128_1_0_0_1_n_n.lhsIdx i q 0).val = (i 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
theorem lhs_spread_1 (i : S2000x128.Idx) (q : dot_S2000x8_S8x128_S2000x128_1_0_0_1_n_n.contr.Idx) :
    (dot_S2000x8_S8x128_S2000x128_1_0_0_1_n_n.lhsIdx i q 1).val = (q ⟨0, by decide⟩).val :=
  dot_S2000x8_S8x128_S2000x128_1_0_0_1_n_n.lhsIdx_val_of_single rfl i q
theorem rhs_spread_0 (i : S2000x128.Idx) (q : dot_S2000x8_S8x128_S2000x128_1_0_0_1_n_n.contr.Idx) :
    (dot_S2000x8_S8x128_S2000x128_1_0_0_1_n_n.rhsIdx i q 0).val = (q ⟨0, by decide⟩).val :=
  dot_S2000x8_S8x128_S2000x128_1_0_0_1_n_n.rhsIdx_val_of_single rfl i q
theorem rhs_spread_1 (i : S2000x128.Idx) (q : dot_S2000x8_S8x128_S2000x128_1_0_0_1_n_n.contr.Idx) :
    (dot_S2000x8_S8x128_S2000x128_1_0_0_1_n_n.rhsIdx i q 1).val = (i 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- Entry (p, q) of a 2000 × 8 by 8 × 128 product: row p against column q. -/
theorem matmul_spread_apply {φ₁ φ₂ : FTy} (a : FVec Ideal S2000x8 φ₁) (b : FVec Ideal S8x128 φ₂) (p : Fin 2000) (q : Fin 128) :
    matmul dot_S2000x8_S8x128_S2000x128_1_0_0_1_n_n none a b (constant S2000x128 .f32 0x00000000#32) (ix2 p q)
      = ∑ h : Fin 8, a (ix2 p h) * b (ix2 h q) := by
  simp only [matmul]
  rw [Ideal.matmul_constant_zero_apply, ← Equiv.sum_comp (contrEquiv1 dot_S2000x8_S8x128_S2000x128_1_0_0_1_n_n 8 rfl rfl).symm]
  refine Finset.sum_congr rfl fun k _ => ?_
  have hk := contrEquiv1_symm_val dot_S2000x8_S8x128_S2000x128_1_0_0_1_n_n 8 rfl rfl k
  have el : dot_S2000x8_S8x128_S2000x128_1_0_0_1_n_n.lhsIdx (ix2 p q) ((contrEquiv1 dot_S2000x8_S8x128_S2000x128_1_0_0_1_n_n 8 rfl rfl).symm k) = ix2 p k := funext fun a => Fin.ext (by
    match a with
    | ⟨0, _⟩ => exact lhs_spread_0 _ _
    | ⟨1, _⟩ => exact (lhs_spread_1 _ _).trans hk)
  have er : dot_S2000x8_S8x128_S2000x128_1_0_0_1_n_n.rhsIdx (ix2 p q) ((contrEquiv1 dot_S2000x8_S8x128_S2000x128_1_0_0_1_n_n 8 rfl rfl).symm k) = ix2 k q := funext fun a => Fin.ext (by
    match a with
    | ⟨0, _⟩ => exact (rhs_spread_0 _ _).trans hk
    | ⟨1, _⟩ => exact rhs_spread_1 _ _)
  rw [el, er]

/-! ## The three stored payloads at an entry of the block

ef, we, ks, qd, vs, m, mt stand for the loaded blocks of the edge features, the edge weights, the key, query and
value rows and the two indicators. -/

/-- The score payload at (p, q): key times query times ¼, cut into [−5, 5], times row p of the edge features
    against column q of the edge weights. -/
theorem score_pay_apply (ef : Vec Ideal S2000x128 .f32) (we : Vec Ideal S128x128 .f32) (ks : Vec Ideal S2000x128 .f32)
    (qd : Vec Ideal S2000x128 .f32) (p : Fin 2000) (q : Fin 128) :
    k1_pay1 ef we ks qd (ix2 p q)
      = Cert.Spec.clip5 ((ks (ix2 p q) : EReal) * (qd (ix2 p q) : EReal) * Ideal.ofBits .f32 0x3E800000#32)
          * ∑ k : Fin 128, (ef (ix2 p k) : EReal) * (we (ix2 k q) : EReal) := by
  unfold k1_pay1
  simp only [shapeCast_self]
  rw [mulf_apply, matmul_featW_apply]
  rfl

/-- The same at any entry y of the block. -/
theorem score_pay_at (ef : Vec Ideal S2000x128 .f32) (we : Vec Ideal S128x128 .f32) (ks : Vec Ideal S2000x128 .f32)
    (qd : Vec Ideal S2000x128 .f32) (y : S2000x128.Idx) :
    k1_pay1 ef we ks qd y
      = Cert.Spec.clip5 ((ks y : EReal) * (qd y : EReal) * Ideal.ofBits .f32 0x3E800000#32)
          * ∑ k : Fin 128, (ef (ix2 (y 0) k) : EReal) * (we (ix2 k (y 1)) : EReal) := by
  obtain ⟨p, q, rfl⟩ : ∃ (p : Fin 2000) (q : Fin 128), y = ix2 p q := ⟨y 0, y 1, eq_ix2 y⟩
  exact score_pay_apply ef we ks qd p q

/-- The spread-weights payload at (p, q): row p of the scores against each head's indicator column, cut into
    [−5, 5] and exponentiated, then carried back to column q by the transposed indicator. -/
theorem spread_pay_apply (ef : Vec Ideal S2000x128 .f32) (we : Vec Ideal S128x128 .f32) (ks : Vec Ideal S2000x128 .f32)
    (qd : Vec Ideal S2000x128 .f32) (m : Vec Ideal S128x8 .f32) (mt : Vec Ideal S8x128 .f32) (p : Fin 2000) (q : Fin 128) :
    k1_pay2 ef we ks qd m mt (ix2 p q)
      = ∑ h : Fin 8, Ideal.exp (Cert.Spec.clip5 (∑ k : Fin 128, (k1_pay1 ef we ks qd (ix2 p k) : EReal) * (m (ix2 k h) : EReal)))
          * (mt (ix2 h q) : EReal) := by
  unfold k1_pay2
  rw [matmul_spread_apply]
  refine Finset.sum_congr rfl fun h _ => ?_
  refine congrArg (· * (mt (ix2 h q) : EReal)) ?_
  refine Eq.trans (b := Ideal.exp (Cert.Spec.clip5 (matmul dot_S2000x128_S128x8_S2000x8_1_0_0_1_n_n none (k1_pay1 ef we ks qd) m (constant S2000x8 .f32 0x00000000#32) (ix2 p h)))) rfl ?_
  rw [matmul_heads_apply]

/-- The same at any entry y of the block. -/
theorem spread_pay_at (ef : Vec Ideal S2000x128 .f32) (we : Vec Ideal S128x128 .f32) (ks : Vec Ideal S2000x128 .f32)
    (qd : Vec Ideal S2000x128 .f32) (m : Vec Ideal S128x8 .f32) (mt : Vec Ideal S8x128 .f32) (y : S2000x128.Idx) :
    k1_pay2 ef we ks qd m mt y
      = ∑ h : Fin 8, Ideal.exp (Cert.Spec.clip5 (∑ k : Fin 128, (k1_pay1 ef we ks qd (ix2 (y 0) k) : EReal) * (m (ix2 k h) : EReal)))
          * (mt (ix2 h (y 1)) : EReal) := by
  obtain ⟨p, q, rfl⟩ : ∃ (p : Fin 2000) (q : Fin 128), y = ix2 p q := ⟨y 0, y 1, eq_ix2 y⟩
  exact spread_pay_apply ef we ks qd m mt p q

/-- The weighted-value payload at an entry: the value row's entry times the spread weight there. -/
theorem wval_pay_at (ef : Vec Ideal S2000x128 .f32) (we : Vec Ideal S128x128 .f32) (ks : Vec Ideal S2000x128 .f32)
    (qd : Vec Ideal S2000x128 .f32) (vs : Vec Ideal S2000x128 .f32) (m : Vec Ideal S128x8 .f32) (mt : Vec Ideal S8x128 .f32)
    (y : S2000x128.Idx) :
    k1_pay3 ef we ks qd vs m mt y = (vs y : EReal) * (k1_pay2 ef we ks qd m mt y : EReal) := by
  unfold k1_pay3
  simp only [shapeCast_self]
  rfl

variable (V : (c : Dev nD) → (b : Ref sig .tc) → Buf (Elt Ideal) ((c : Thread nD τ).loc b))

/-- The region's arrays at their literal types, as the region finds them: the gathered key, query and value rows,
    the edge features, the edge weights, the two indicator matrices; and its three outputs after the run. -/
abbrev ksArr (c : Dev nD) : S400000x128.Idx → EReal := V c main_v11
abbrev qdArr (c : Dev nD) : S400000x128.Idx → EReal := V c main_v18
abbrev vsArr (c : Dev nD) : S400000x128.Idx → EReal := V c main_v25
abbrev efArr (c : Dev nD) : S400000x128.Idx → EReal := V c main_arg1
abbrev weArr (c : Dev nD) : S128x128.Idx → EReal := V c main_arg5
abbrev mArr (c : Dev nD) : S128x8.Idx → EReal := V c main_cst
abbrev mtArr (c : Dev nD) : S8x128.Idx → EReal := V c main_cst_0
abbrev scoreOut (c : Dev nD) : S400000x128.Idx → EReal := (dat1 V c).arrAt 7 cfg1.N
abbrev wvalOut (c : Dev nD) : S400000x128.Idx → EReal := (dat1 V c).arrAt 8 cfg1.N
abbrev spreadOut (c : Dev nD) : S400000x128.Idx → EReal := (dat1 V c).arrAt 9 cfg1.N

/-! ## Where the blocks sit -/

theorem zeros2 : (![0, 0] : Fin 2 → Nat) = fun _ => 0 := funext fun a => by fin_cases a <;> rfl

/-- The windows' index maps over the grid: the four row windows and the three outputs are at block (t, 0) at point t,
    the three matrices at block (0, 0) throughout. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- The grid has 200 points. -/
theorem point_lt (t : Fin cfg1.N) : t.val < 200 := lt_of_lt_of_eq t.isLt N_1

/-- Row p of block t is row 2000·t + p of the array. -/
def rowOf (t : Fin cfg1.N) (p : Fin 2000) : Fin 400000 :=
  ⟨2000 * t.val + p.val, by have := point_lt t; omega⟩

/-- Entry y of block t as an entry of the array. -/
def arrIx (t : Fin cfg1.N) (y : S2000x128.Idx) : S400000x128.Idx := ix2 (rowOf t (y 0)) (y 1)

/-- The key-row block at point t is rows 2000·t … 2000·t + 1999 of the gathered key rows. -/
theorem iblk_ks (c : Dev nD) (t : Fin cfg1.N) (y : S2000x128.Idx) :
    (iblk1 V c 0 t : Vec Ideal S2000x128 .f32) y = ksArr V c (arrIx t y) := by
  obtain ⟨e0, e1⟩ := (block_index t).1
  unfold iblk1
  show V c main_v11 (((cfg1.win 0).blk t).view.emb y) = V c main_v11 (arrIx t y)
  congr 1
  funext a; apply Fin.ext
  match a with
  | ⟨0, _⟩ => show win1_0.index t (0 : Fin 2) * 2000 + 1 * (y 0).val = 2000 * t.val + (y 0).val; omega
  | ⟨1, _⟩ => show win1_0.index t (1 : Fin 2) * 128 + 1 * (y 1).val = (y 1).val; omega

/-- The query-row block at point t, likewise. -/
theorem iblk_qd (c : Dev nD) (t : Fin cfg1.N) (y : S2000x128.Idx) :
    (iblk1 V c 1 t : Vec Ideal S2000x128 .f32) y = qdArr V c (arrIx t y) := by
  obtain ⟨e0, e1⟩ := (block_index t).2.1
  unfold iblk1
  show V c main_v18 (((cfg1.win 1).blk t).view.emb y) = V c main_v18 (arrIx t y)
  congr 1
  funext a; apply Fin.ext
  match a with
  | ⟨0, _⟩ => show win1_1.index t (0 : Fin 2) * 2000 + 1 * (y 0).val = 2000 * t.val + (y 0).val; omega
  | ⟨1, _⟩ => show win1_1.index t (1 : Fin 2) * 128 + 1 * (y 1).val = (y 1).val; omega

/-- The value-row block at point t, likewise. -/
theorem iblk_vs (c : Dev nD) (t : Fin cfg1.N) (y : S2000x128.Idx) :
    (iblk1 V c 2 t : Vec Ideal S2000x128 .f32) y = vsArr V c (arrIx t y) := by
  obtain ⟨e0, e1⟩ := (block_index t).2.2.1
  unfold iblk1
  show V c main_v25 (((cfg1.win 2).blk t).view.emb y) = V c main_v25 (arrIx t y)
  congr 1
  funext a; apply Fin.ext
  match a with
  | ⟨0, _⟩ => show win1_2.index t (0 : Fin 2) * 2000 + 1 * (y 0).val = 2000 * t.val + (y 0).val; omega
  | ⟨1, _⟩ => show win1_2.index t (1 : Fin 2) * 128 + 1 * (y 1).val = (y 1).val; omega

/-- The edge-feature block at point t, likewise. -/
theorem iblk_ef (c : Dev nD) (t : Fin cfg1.N) (y : S2000x128.Idx) :
    (iblk1 V c 3 t : Vec Ideal S2000x128 .f32) y = efArr V c (arrIx t y) := by
  obtain ⟨e0, e1⟩ := (block_index t).2.2.2.1
  unfold iblk1
  show V c main_arg1 (((cfg1.win 3).blk t).view.emb y) = V c main_arg1 (arrIx t y)
  congr 1
  funext a; apply Fin.ext
  match a with
  | ⟨0, _⟩ => show win1_3.index t (0 : Fin 2) * 2000 + 1 * (y 0).val = 2000 * t.val + (y 0).val; omega
  | ⟨1, _⟩ => show win1_3.index t (1 : Fin 2) * 128 + 1 * (y 1).val = (y 1).val; omega

/-- The edge weights' one block is the whole matrix, at every point. -/
theorem iblk_we (c : Dev nD) (t : Fin cfg1.N) : (iblk1 V c 4 t : Vec Ideal S128x128 .f32) = weArr V c := by
  obtain ⟨e0, e1⟩ := (block_index t).2.2.2.2.1
  unfold iblk1
  funext y
  show V c main_arg5 (((cfg1.win 4).blk t).view.emb y) = V c main_arg5 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The 128 × 8 indicator's one block is the whole matrix. -/
theorem iblk_m (c : Dev nD) (t : Fin cfg1.N) : (iblk1 V c 5 t : Vec Ideal S128x8 .f32) = mArr V c := by
  obtain ⟨e0, e1⟩ := (block_index t).2.2.2.2.2.1
  unfold iblk1
  funext y
  show V c main_cst (((cfg1.win 5).blk t).view.emb y) = V c main_cst y
  congr 1
  funext a; apply Fin.ext
  match a with
  | ⟨0, _⟩ => show win1_5.index t (0 : Fin 2) * 128 + 1 * (y 0).val = (y 0).val; omega
  | ⟨1, _⟩ => show win1_5.index t (1 : Fin 2) * 8 + 1 * (y 1).val = (y 1).val; omega

/-- The 8 × 128 indicator's one block is the whole matrix. -/
theorem iblk_mt (c : Dev nD) (t : Fin cfg1.N) : (iblk1 V c 6 t : Vec Ideal S8x128 .f32) = mtArr V c := by
  obtain ⟨e0, e1⟩ := (block_index t).2.2.2.2.2.2.1
  unfold iblk1
  funext y
  show V c main_cst_0 (((cfg1.win 6).blk t).view.emb y) = V c main_cst_0 y
  congr 1
  funext a; apply Fin.ext
  match a with
  | ⟨0, _⟩ => show win1_6.index t (0 : Fin 2) * 8 + 1 * (y 0).val = (y 0).val; omega
  | ⟨1, _⟩ => show win1_6.index t (1 : Fin 2) * 128 + 1 * (y 1).val = (y 1).val; omega

/-- Entry y of the score window's block at point t is entry (2000·t + y₀, y₁) of its array; -/
theorem emb_score (t : Fin cfg1.N) (y : S2000x128.Idx) : ((cfg1.win 7).blk t).view.emb y = arrIx t y := by
  obtain ⟨e0, e1⟩ := (block_index t).2.2.2.2.2.2.2.1
  funext a; apply Fin.ext
  match a with
  | ⟨0, _⟩ => show win1_7.index t (0 : Fin 2) * 2000 + 1 * (y 0).val = 2000 * t.val + (y 0).val; omega
  | ⟨1, _⟩ => show win1_7.index t (1 : Fin 2) * 128 + 1 * (y 1).val = (y 1).val; omega

/-- so for the weighted values' window; -/
theorem emb_wval (t : Fin cfg1.N) (y : S2000x128.Idx) : ((cfg1.win 8).blk t).view.emb y = arrIx t y := by
  obtain ⟨e0, e1⟩ := (block_index t).2.2.2.2.2.2.2.2.1
  funext a; apply Fin.ext
  match a with
  | ⟨0, _⟩ => show win1_8.index t (0 : Fin 2) * 2000 + 1 * (y 0).val = 2000 * t.val + (y 0).val; omega
  | ⟨1, _⟩ => show win1_8.index t (1 : Fin 2) * 128 + 1 * (y 1).val = (y 1).val; omega

/-- and for the spread weights' window. -/
theorem emb_spread (t : Fin cfg1.N) (y : S2000x128.Idx) : ((cfg1.win 9).blk t).view.emb y = arrIx t y := by
  obtain ⟨e0, e1⟩ := (block_index t).2.2.2.2.2.2.2.2.2
  funext a; apply Fin.ext
  match a with
  | ⟨0, _⟩ => show win1_9.index t (0 : Fin 2) * 2000 + 1 * (y 0).val = 2000 * t.val + (y 0).val; omega
  | ⟨1, _⟩ => show win1_9.index t (1 : Fin 2) * 128 + 1 * (y 1).val = (y 1).val; omega

/-! ## The three arrays as functions of the arrays the region finds -/

/-- The scores, entry by entry. -/
def scoreFn (c : Dev nD) : S400000x128.Idx → EReal := fun i =>
  Cert.Spec.clip5 (ksArr V c i * qdArr V c i * Ideal.ofBits .f32 0x3E800000#32)
    * ∑ k : Fin 128, efArr V c (ix2 (i 0) k) * weArr V c (ix2 k (i 1))

/-- The spread weights, from the scores' row. -/
def spreadFn (c : Dev nD) : S400000x128.Idx → EReal := fun i =>
  ∑ h : Fin 8, Ideal.exp (Cert.Spec.clip5 (∑ k : Fin 128, scoreFn V c (ix2 (i 0) k) * mArr V c (ix2 k h))) * mtArr V c (ix2 h (i 1))

/-- The weighted values, from the spread weights. -/
def wvalFn (c : Dev nD) : S400000x128.Idx → EReal := fun i => vsArr V c i * spreadFn V c i

/-- The score payload of point t's blocks is block t of the scores. -/
theorem score_block (c : Dev nD) (t : Fin cfg1.N) (y : S2000x128.Idx) :
    k1_pay1 (iblk1 V c 3 t) (iblk1 V c 4 t) (iblk1 V c 0 t) (iblk1 V c 1 t) y = scoreFn V c (arrIx t y) := by
  refine (score_pay_at _ _ _ _ y).trans ?_
  rw [iblk_ks, iblk_qd, iblk_we]
  simp only [iblk_ef]
  rfl

/-- The spread-weights payload of point t's blocks is block t of the spread weights. -/
theorem spread_block (c : Dev nD) (t : Fin cfg1.N) (y : S2000x128.Idx) :
    k1_pay2 (iblk1 V c 3 t) (iblk1 V c 4 t) (iblk1 V c 0 t) (iblk1 V c 1 t) (iblk1 V c 5 t) (iblk1 V c 6 t) y
      = spreadFn V c (arrIx t y) := by
  refine (spread_pay_at _ _ _ _ _ _ y).trans ?_
  rw [iblk_m, iblk_mt]
  simp only [score_block]
  rfl

/-- The weighted-value payload of point t's blocks is block t of the weighted values. -/
theorem wval_block (c : Dev nD) (t : Fin cfg1.N) (y : S2000x128.Idx) :
    k1_pay3 (iblk1 V c 3 t) (iblk1 V c 4 t) (iblk1 V c 0 t) (iblk1 V c 1 t) (iblk1 V c 2 t) (iblk1 V c 5 t) (iblk1 V c 6 t) y
      = wvalFn V c (arrIx t y) := by
  refine (wval_pay_at _ _ _ _ _ _ _ y).trans ?_
  rw [iblk_vs, spread_block]
  rfl

/-! ## What each point writes back -/

/-- Point t writes back block t of the scores. -/
theorem flushed_score (c : Dev nD) (t : Fin cfg1.N) :
    (dat1 V c).flushed 7 t = ((cfg1.win 7).blk t).view.read (Elt Ideal) (scoreFn V c) := by
  show (cfg1.win 7).cut (grid1.coords t) ((dat1 V c).after 7 t) = _
  rw [after1_7]
  unfold out1_7
  rw [View.canon_unit_zero zeros2]
  simp only [View.ld_unit_zero (S := S2000x128) zeros2, View.ld_unit_zero (S := S128x128) zeros2]
  refine funext fun (y : S2000x128.Idx) => ?_
  show k1_pay1 (iblk1 V c 3 t) (iblk1 V c 4 t) (iblk1 V c 0 t) (iblk1 V c 1 t) y = scoreFn V c (((cfg1.win 7).blk t).view.emb y)
  rw [emb_score, score_block]

/-- Point t writes back block t of the weighted values. -/
theorem flushed_wval (c : Dev nD) (t : Fin cfg1.N) :
    (dat1 V c).flushed 8 t = ((cfg1.win 8).blk t).view.read (Elt Ideal) (wvalFn V c) := by
  show (cfg1.win 8).cut (grid1.coords t) ((dat1 V c).after 8 t) = _
  rw [after1_8]
  unfold out1_8
  rw [View.canon_unit_zero zeros2]
  simp only [View.ld_unit_zero (S := S2000x128) zeros2, View.ld_unit_zero (S := S128x128) zeros2,
    View.ld_unit_zero (S := S128x8) zeros2, View.ld_unit_zero (S := S8x128) zeros2]
  refine funext fun (y : S2000x128.Idx) => ?_
  show k1_pay3 (iblk1 V c 3 t) (iblk1 V c 4 t) (iblk1 V c 0 t) (iblk1 V c 1 t) (iblk1 V c 2 t) (iblk1 V c 5 t) (iblk1 V c 6 t) y
    = wvalFn V c (((cfg1.win 8).blk t).view.emb y)
  rw [emb_wval, wval_block]

/-- Point t writes back block t of the spread weights. -/
theorem flushed_spread (c : Dev nD) (t : Fin cfg1.N) :
    (dat1 V c).flushed 9 t = ((cfg1.win 9).blk t).view.read (Elt Ideal) (spreadFn V c) := by
  show (cfg1.win 9).cut (grid1.coords t) ((dat1 V c).after 9 t) = _
  rw [after1_9]
  unfold out1_9
  rw [View.canon_unit_zero zeros2]
  simp only [View.ld_unit_zero (S := S2000x128) zeros2, View.ld_unit_zero (S := S128x128) zeros2,
    View.ld_unit_zero (S := S128x8) zeros2, View.ld_unit_zero (S := S8x128) zeros2]
  refine funext fun (y : S2000x128.Idx) => ?_
  show k1_pay2 (iblk1 V c 3 t) (iblk1 V c 4 t) (iblk1 V c 0 t) (iblk1 V c 1 t) (iblk1 V c 5 t) (iblk1 V c 6 t) y
    = spreadFn V c (((cfg1.win 9).blk t).view.emb y)
  rw [emb_spread, spread_block]

/-! ## The blocks cover the arrays -/

/-- Every row lies in exactly the block of its quotient by 2000. -/
theorem row_block (i : S400000x128.Idx) : ∃ t : Fin cfg1.N, 2000 * t.val ≤ (i 0).val ∧ (i 0).val < 2000 * t.val + 2000 := by
  have hi0 : (i 0).val < 400000 := (i 0).isLt
  exact ⟨⟨(i 0).val / 2000, lt_of_lt_of_eq (by omega : (i 0).val / 2000 < 200) N_1.symm⟩, by show 2000 * ((i 0).val / 2000) ≤ _; omega, by show _ < 2000 * ((i 0).val / 2000) + 2000; omega⟩

/-- An entry is in the score window's block at point t iff its row is one of the block's 2000; -/
theorem mem_blk_score (t : Fin cfg1.N) (i : S400000x128.Idx) :
    i ∈ ((cfg1.win 7).blk t).view.set ↔ 2000 * t.val ≤ (i 0).val ∧ (i 0).val < 2000 * t.val + 2000 := by
  obtain ⟨e0, e1⟩ := (block_index t).2.2.2.2.2.2.2.1
  have hi1 : (i 1).val < 128 := (i 1).isLt
  show i ∈ ((View.whole main_v26_0).slice (win1_7.rect t)).set ↔ _
  rw [View.set_slice_whole, Rect.mem_set_unit]
  constructor
  · intro h
    have b0 : win1_7.index t (0 : Fin 2) * 2000 ≤ (i 0).val ∧ (i 0).val < win1_7.index t (0 : Fin 2) * 2000 + 2000 := h 0
    omega
  · intro h a
    match a with
    | ⟨0, _⟩ => show win1_7.index t (0 : Fin 2) * 2000 ≤ (i 0).val ∧ (i 0).val < win1_7.index t (0 : Fin 2) * 2000 + 2000; omega
    | ⟨1, _⟩ => show win1_7.index t (1 : Fin 2) * 128 ≤ (i 1).val ∧ (i 1).val < win1_7.index t (1 : Fin 2) * 128 + 128; omega

/-- so for the weighted values' window; -/
theorem mem_blk_wval (t : Fin cfg1.N) (i : S400000x128.Idx) :
    i ∈ ((cfg1.win 8).blk t).view.set ↔ 2000 * t.val ≤ (i 0).val ∧ (i 0).val < 2000 * t.val + 2000 := by
  obtain ⟨e0, e1⟩ := (block_index t).2.2.2.2.2.2.2.2.1
  have hi1 : (i 1).val < 128 := (i 1).isLt
  show i ∈ ((View.whole main_v26_1).slice (win1_8.rect t)).set ↔ _
  rw [View.set_slice_whole, Rect.mem_set_unit]
  constructor
  · intro h
    have b0 : win1_8.index t (0 : Fin 2) * 2000 ≤ (i 0).val ∧ (i 0).val < win1_8.index t (0 : Fin 2) * 2000 + 2000 := h 0
    omega
  · intro h a
    match a with
    | ⟨0, _⟩ => show win1_8.index t (0 : Fin 2) * 2000 ≤ (i 0).val ∧ (i 0).val < win1_8.index t (0 : Fin 2) * 2000 + 2000; omega
    | ⟨1, _⟩ => show win1_8.index t (1 : Fin 2) * 128 ≤ (i 1).val ∧ (i 1).val < win1_8.index t (1 : Fin 2) * 128 + 128; omega

/-- and for the spread weights' window. -/
theorem mem_blk_spread (t : Fin cfg1.N) (i : S400000x128.Idx) :
    i ∈ ((cfg1.win 9).blk t).view.set ↔ 2000 * t.val ≤ (i 0).val ∧ (i 0).val < 2000 * t.val + 2000 := by
  obtain ⟨e0, e1⟩ := (block_index t).2.2.2.2.2.2.2.2.2
  have hi1 : (i 1).val < 128 := (i 1).isLt
  show i ∈ ((View.whole main_v26_2).slice (win1_9.rect t)).set ↔ _
  rw [View.set_slice_whole, Rect.mem_set_unit]
  constructor
  · intro h
    have b0 : win1_9.index t (0 : Fin 2) * 2000 ≤ (i 0).val ∧ (i 0).val < win1_9.index t (0 : Fin 2) * 2000 + 2000 := h 0
    omega
  · intro h a
    match a with
    | ⟨0, _⟩ => show win1_9.index t (0 : Fin 2) * 2000 ≤ (i 0).val ∧ (i 0).val < win1_9.index t (0 : Fin 2) * 2000 + 2000; omega
    | ⟨1, _⟩ => show win1_9.index t (1 : Fin 2) * 128 ≤ (i 1).val ∧ (i 1).val < win1_9.index t (1 : Fin 2) * 128 + 128; omega

/-! ## The arrays after the run -/

/-- The score array ends holding the scores. -/
theorem score_array (c : Dev nD) : (dat1 V c).arrAt 7 cfg1.N = scoreFn V c :=
  (dat1 V c).arrAt_eq_of_cover 7 (scoreFn V c) (fun t _ => flushed_score V c t) fun i => by
    obtain ⟨t, ht⟩ := row_block i
    refine ⟨t, flush1_7 t, ?_⟩
    rw [mem_blk_score]
    exact ht

/-- The weighted-value array ends holding the weighted values. -/
theorem wval_array (c : Dev nD) : (dat1 V c).arrAt 8 cfg1.N = wvalFn V c :=
  (dat1 V c).arrAt_eq_of_cover 8 (wvalFn V c) (fun t _ => flushed_wval V c t) fun i => by
    obtain ⟨t, ht⟩ := row_block i
    refine ⟨t, flush1_8 t, ?_⟩
    rw [mem_blk_wval]
    exact ht

/-- The spread-weights array ends holding the spread weights. -/
theorem spread_array (c : Dev nD) : (dat1 V c).arrAt 9 cfg1.N = spreadFn V c :=
  (dat1 V c).arrAt_eq_of_cover 9 (spreadFn V c) (fun t _ => flushed_spread V c t) fun i => by
    obtain ⟨t, ht⟩ := row_block i
    refine ⟨t, flush1_9 t, ?_⟩
    rw [mem_blk_spread]
    exact ht

/-- The score array (output window 7). -/
theorem final1_7 (c : Dev nD) (e : Fin 400000) (f : Fin 128) :
    scoreOut V c (ix2 e f)
      = Cert.Spec.clip5 (ksArr V c (ix2 e f) * qdArr V c (ix2 e f) * Ideal.ofBits .f32 0x3E800000#32)
          * ∑ k : Fin 128, efArr V c (ix2 e k) * weArr V c (ix2 k f) := by
  have hscore : scoreOut V c = scoreFn V c := score_array V c
  rw [hscore]
  rfl

/-- The spread-weights array (output window 9). -/
theorem final1_9 (c : Dev nD) (e : Fin 400000) (f : Fin 128) :
    spreadOut V c (ix2 e f)
      = ∑ h : Fin 8, Ideal.exp (Cert.Spec.clip5 (∑ k : Fin 128, scoreOut V c (ix2 e k) * mArr V c (ix2 k h))) * mtArr V c (ix2 h f) := by
  have hscore : scoreOut V c = scoreFn V c := score_array V c
  have hspread : spreadOut V c = spreadFn V c := spread_array V c
  rw [hspread, hscore]
  rfl

/-- The weighted-value array (output window 8). -/
theorem final1_8 (c : Dev nD) (e : Fin 400000) (f : Fin 128) :
    wvalOut V c (ix2 e f) = vsArr V c (ix2 e f) * spreadOut V c (ix2 e f) := by
  have hspread : spreadOut V c = spreadFn V c := spread_array V c
  have hwval : wvalOut V c = wvalFn V c := wval_array V c
  rw [hwval, hspread]
  rfl

end Cert.KernelIdeal.Hand

end
-- ==== Proof.KI.Final0.lean ====
/-
  The node projection's output array after the region, read at an entry: the 25 blocks written back tile the
  50000 × 384 array, block t holding the product of rows 2000·t … of the node features with the joined weights, so
  entry (n, j) is the sum over k of feature (n, k) times weight (k, j).
-/
import proofs.«101658_j14508399526689_1_alg».proof.Proof.KI.Region0
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The region's arrays at their literal types: the node features, the joined weights, and the product after the run. -/
abbrev nodeArr (c : Dev nD) : S50000x128.Idx → EReal := V c main_arg0
abbrev wqkvArr (c : Dev nD) : S128x384.Idx → EReal := V c main_v0
abbrev qkvOut (c : Dev nD) : S50000x384.Idx → EReal := (dat0 V c).arrAt 2 cfg0.N

/-- The zero offsets of a whole-buffer rectangle, as a constant function. -/
theorem qkv_zero_offsets : (![0, 0] : Fin 2 → Nat) = fun _ => 0 := funext fun a => by fin_cases a <;> rfl

/-- The product's operand indices at output entry i and contraction index q, axis by axis: the left operand is read at
    (row of i, q), the right at (q, column of i). -/
theorem qkv_lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem qkv_lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem qkv_rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem qkv_rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The block product at an entry: row p of the feature block against column q of the weights. -/
theorem qkv_block_apply (x0 : Vec Ideal S2000x128 .f32) (x1 : Vec Ideal S128x384 .f32) (p : Fin 2000) (q : Fin 384) :
    k0_pay1 (F := Ideal) x0 x1 (ix2 p q) = ∑ k : Fin 128, (x0 : S2000x128.Idx → EReal) (ix2 p k) * (x1 : S128x384.Idx → EReal) (ix2 k q) := by
  unfold k0_pay1
  rw [shapeCast_self]
  refine (Ideal.matmul_constant_zero_apply dot_S2000x128_S128x384_S2000x384_1_0_0_1_n_n none _ _ _).trans ?_
  rw [← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p q) ((contrEquiv1 dot_S2000x128_S128x384_S2000x384_1_0_0_1_n_n 128 rfl rfl).symm k) = ix2 p k := funext fun a => Fin.ext (by
    match a with
    | ⟨0, _⟩ => exact qkv_lhs_0 _ _
    | ⟨1, _⟩ => exact (qkv_lhs_1 _ _).trans hk)
  have er : dot_S2000x128_S128x384_S2000x384_1_0_0_1_n_n.rhsIdx (ix2 p q) ((contrEquiv1 dot_S2000x128_S128x384_S2000x384_1_0_0_1_n_n 128 rfl rfl).symm k) = ix2 k q := funext fun a => Fin.ext (by
    match a with
    | ⟨0, _⟩ => exact (qkv_rhs_0 _ _).trans hk
    | ⟨1, _⟩ => exact qkv_rhs_1 _ _)
  rw [el, er]
  rfl

/-- The product of the whole node-feature array with the joined weights, entry by entry. -/
abbrev qkvProduct (a : S50000x128.Idx → EReal) (w : S128x384.Idx → EReal) : S50000x384.Idx → EReal :=
  fun i => ∑ k : Fin 128, a (ix2 (i 0) k) * w (ix2 k (i 1))

/-- The grid's index maps, decided over its 25 points: at point t the feature window and the output window sit on
    row block t and column block 0, and the weight window's block never moves. -/
theorem qkv_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem qkv_flushed_eq (c : Dev nD) (t : Fin cfg0.N) :
    (dat0 V c).flushed 2 t = ((cfg0.win 2).blk t).view.read (Elt Ideal) (qkvProduct (nodeArr V c) (wqkvArr V c)) := by
  show (cfg0.win 2).cut (grid0.coords t) ((dat0 V c).after 2 t) = _
  rw [after0_2]
  unfold out0_2
  rw [View.canon_unit_zero qkv_zero_offsets]
  simp only [View.ld_unit_zero (S := S2000x128) qkv_zero_offsets, View.ld_unit_zero (S := S128x384) qkv_zero_offsets]
  obtain ⟨e0, e1, e2, e3, e4, e5⟩ := qkv_block_indices t
  refine funext fun (y : S2000x384.Idx) => ?_
  show k0_pay1 (F := Ideal) (iblk0 V c 0 t) (iblk0 V c 1 t) y = qkvProduct (nodeArr V c) (wqkvArr V c) (((cfg0.win 2).blk t).view.emb y)
  obtain ⟨p, q, rfl⟩ : ∃ (p : Fin 2000) (q : Fin 384), y = ix2 p q := ⟨y 0, y 1, eq_ix2 y⟩
  rw [qkv_block_apply]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 384 + 1 * q.val = win0_2.index t (1 : Fin 2) * 384 + 1 * q.val; omega
  show nodeArr V c (((cfg0.win 0).blk t).view.emb (ix2 p k)) * wqkvArr V c (((cfg0.win 1).blk t).view.emb (ix2 k q)) = _
  rw [h0, h1]
  rfl

/-- An entry of the output array is in point t's block iff each coordinate is in the block's range on its axis. -/
theorem qkv_mem_block (t : Fin cfg0.N) (i : S50000x384.Idx) :
    i ∈ ((cfg0.win 2).blk t).view.set ↔ ∀ a : Fin 2, win0_2.index t a * S2000x384.size a ≤ (i a).val ∧ (i a).val < win0_2.index t a * S2000x384.size a + S2000x384.size a := by
  show i ∈ ((View.whole main_v1).slice (win0_2.rect t)).set ↔ _
  rw [View.set_slice_whole, Rect.mem_set_unit]
  exact Iff.rfl

/-- The 25 blocks tile the array: row r lies in the block of point r / 2000, and every block has all 384 columns. -/
theorem qkv_covered (i : S50000x384.Idx) : ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, e4, e5⟩ := qkv_block_indices t
  refine ⟨t, flush0_2 t, ?_⟩
  rw [qkv_mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 384 ≤ (i 1).val ∧ (i 1).val < win0_2.index t (1 : Fin 2) * 384 + 384; omega

/-- So the output array after the region is the whole product. -/
theorem qkvOut_eq (c : Dev nD) : qkvOut V c = qkvProduct (nodeArr V c) (wqkvArr V c) :=
  (dat0 V c).arrAt_eq_of_cover 2 (qkvProduct (nodeArr V c) (wqkvArr V c)) (fun t _ => qkv_flushed_eq V c t) qkv_covered

theorem final0 (c : Dev nD) (n : Fin 50000) (j : Fin 384) :
    qkvOut V c (ix2 n j) = ∑ k : Fin 128, nodeArr V c (ix2 n k) * wqkvArr V c (ix2 k j) := by
  rw [qkvOut_eq]

end Cert.KernelIdeal.Hand

end
-- ==== Proof.LibRowGather.lean ====
/-
  Rows of a table taken by a column of row numbers, read at coordinates.

  `table[idx]` for a table of `N` rows and `C` columns and a vector of `R` row numbers is a gather with the
  numbers laid out as an `R × 1` column: offset axis `1`, collapsed axis `0`, start index map `[0]`, index vector
  axis `1`, slices of `1 × C`. Entry `(e, f)` of the result is the table at row `idx[e, 0]` — read as a signed
  integer and clamped into `[0, N − 1]`, as every start index of a gather is — and column `f`.
-/
import Idealize.ShloMosaic.Lib.ValueIdx

noncomputable section

namespace Idealize.ShloMosaic.RowGather

open Idealize.ShloMosaic Idealize.ShloMosaic.ValueIdx

variable {α : Type}

/-- Those dimension numbers for a table `[N, C]`, row numbers `[R, 1]` and a result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the table at the row number `idx[e, 0]`, read signed and clamped into
    `[0, N − 1]`, and at column `f`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowDims N C R wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowDims N C R wf).start (ix2 e f) idx 0 + (rowDims N C R wf).batchCoord (ix2 e f) 0
      + (rowDims N C R wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e f) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C R wf).start (ix2 e f) idx 1 + (rowDims N C R wf).batchCoord (ix2 e f) 1
      + (rowDims N C R wf).offCoord (ix2 e f) 1 = f.val
    rw [GatherDims.batchCoord_eq_zero _ _ _ List.not_mem_nil]
    unfold GatherDims.start
    rw [dif_neg (fun h : (1 : Fin 2) ∈ (rowDims N C R wf).startIndexMap =>
      Nat.one_ne_zero (Fin.val_eq_of_eq (List.mem_singleton.mp h)))]
    simp only [Nat.add_zero, Nat.zero_add]
    rfl

end Idealize.ShloMosaic.RowGather

end
-- ==== Proof.LibColumnJoin.lean ====
/-
  Three matrices side by side, read at a row and a column.

  `R × n₁`, `R × n₂` and `R × n₃` matrices concatenated along the columns into an `R × w` matrix: column `k` of row
  `p` comes from the first piece when `k < n₁`, from the second at column `k − n₁` when `n₁ ≤ k < n₁ + n₂`, and
  from the third at column `k − n₁ − n₂` beyond that. Each case is the general "the piece whose span holds the
  coordinate" with the spans' starts `0`, `n₁` and `n₁ + n₂`.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type} {R n₁ n₂ n₃ w : Nat}

/-- Column `k < n₁` of the join is column `k` of the first piece. -/
theorem join3_first (a : (⟨2, ![R, n₁]⟩ : Shape).Idx → α) (b : (⟨2, ![R, n₂]⟩ : Shape).Idx → α)
    (c : (⟨2, ![R, n₃]⟩ : Shape).Idx → α)
    (h : Shape.Concatenates [(⟨2, ![R, n₁]⟩ : Shape), ⟨2, ![R, n₂]⟩, ⟨2, ![R, n₃]⟩] ⟨2, ![R, w]⟩ 1)
    (p : Fin R) (k : Fin w) (hk : k.val < n₁) :
    concatenate ⟨2, ![R, w]⟩ 1 [⟨⟨2, ![R, n₁]⟩, a⟩, ⟨⟨2, ![R, n₂]⟩, b⟩, ⟨⟨2, ![R, n₃]⟩, c⟩] h (ix2 p k)
      = a (ix2 p ⟨k.val, hk⟩) := by
  refine concatenate_apply_piece (t := ⟨2, ![R, w]⟩) (1 : Fin 2) [⟨⟨2, ![R, n₁]⟩, a⟩, ⟨⟨2, ![R, n₂]⟩, b⟩, ⟨⟨2, ![R, n₃]⟩, c⟩] h (ix2 p k) 0 (by show 0 < 3; omega) ⟨2, ![R, n₁]⟩ a rfl rfl 0 rfl
    (ix2 p ⟨k.val, hk⟩) (fun d hd => ?_) (Nat.zero_add _)
  match d with
  | ⟨0, _⟩ => rfl
  | ⟨1, _⟩ => exact absurd (Fin.ext rfl) hd

/-- Column `n₁ ≤ k < n₁ + n₂` of the join is column `k − n₁` of the second piece. -/
theorem join3_second (a : (⟨2, ![R, n₁]⟩ : Shape).Idx → α) (b : (⟨2, ![R, n₂]⟩ : Shape).Idx → α)
    (c : (⟨2, ![R, n₃]⟩ : Shape).Idx → α)
    (h : Shape.Concatenates [(⟨2, ![R, n₁]⟩ : Shape), ⟨2, ![R, n₂]⟩, ⟨2, ![R, n₃]⟩] ⟨2, ![R, w]⟩ 1)
    (p : Fin R) (k : Fin w) (hk₁ : n₁ ≤ k.val) (hk₂ : k.val - n₁ < n₂) :
    concatenate ⟨2, ![R, w]⟩ 1 [⟨⟨2, ![R, n₁]⟩, a⟩, ⟨⟨2, ![R, n₂]⟩, b⟩, ⟨⟨2, ![R, n₃]⟩, c⟩] h (ix2 p k)
      = b (ix2 p ⟨k.val - n₁, hk₂⟩) := by
  refine concatenate_apply_piece (t := ⟨2, ![R, w]⟩) (1 : Fin 2) [⟨⟨2, ![R, n₁]⟩, a⟩, ⟨⟨2, ![R, n₂]⟩, b⟩, ⟨⟨2, ![R, n₃]⟩, c⟩] h (ix2 p k) 1 (by show 1 < 3; omega) ⟨2, ![R, n₂]⟩ b rfl rfl n₁ (Nat.add_zero _)
    (ix2 p ⟨k.val - n₁, hk₂⟩) (fun d hd => ?_) (by show n₁ + (k.val - n₁) = k.val; omega)
  match d with
  | ⟨0, _⟩ => rfl
  | ⟨1, _⟩ => exact absurd (Fin.ext rfl) hd

/-- Column `n₁ + n₂ ≤ k` of the join is column `k − n₁ − n₂` of the third piece. -/
theorem join3_third (a : (⟨2, ![R, n₁]⟩ : Shape).Idx → α) (b : (⟨2, ![R, n₂]⟩ : Shape).Idx → α)
    (c : (⟨2, ![R, n₃]⟩ : Shape).Idx → α)
    (h : Shape.Concatenates [(⟨2, ![R, n₁]⟩ : Shape), ⟨2, ![R, n₂]⟩, ⟨2, ![R, n₃]⟩] ⟨2, ![R, w]⟩ 1)
    (p : Fin R) (k : Fin w) (hk₁ : n₁ + n₂ ≤ k.val) (hk₂ : k.val - n₁ - n₂ < n₃) :
    concatenate ⟨2, ![R, w]⟩ 1 [⟨⟨2, ![R, n₁]⟩, a⟩, ⟨⟨2, ![R, n₂]⟩, b⟩, ⟨⟨2, ![R, n₃]⟩, c⟩] h (ix2 p k)
      = c (ix2 p ⟨k.val - n₁ - n₂, hk₂⟩) := by
  refine concatenate_apply_piece (t := ⟨2, ![R, w]⟩) (1 : Fin 2) [⟨⟨2, ![R, n₁]⟩, a⟩, ⟨⟨2, ![R, n₂]⟩, b⟩, ⟨⟨2, ![R, n₃]⟩, c⟩] h (ix2 p k) 2 (by show 2 < 3; omega) ⟨2, ![R, n₃]⟩ c rfl rfl (n₁ + n₂)
    (by show n₁ + (n₂ + 0) = n₁ + n₂; omega)
    (ix2 p ⟨k.val - n₁ - n₂, hk₂⟩) (fun d hd => ?_) (by show n₁ + n₂ + (k.val - n₁ - n₂) = k.val; omega)
  match d with
  | ⟨0, _⟩ => rfl
  | ⟨1, _⟩ => exact absurd (Fin.ext rfl) hd

end Idealize.ShloMosaic.ColumnJoin

end
-- ==== Proof.KI.Entry.lean ====
/-
  What the edge region finds when it is entered, in terms of the launch arguments. The first stretch of host
  operations writes the two head-indicator matrices and joins the three node weight matrices side by side; the
  node projection region multiplies the node features by the joined matrix; the second stretch cuts the query,
  key and value projections out of the product (columns 0–127, 128–255, 256–383), wraps the node numbers and
  gathers rows. So the gathered key rows are K[src], the gathered query rows Q[dst], the gathered value rows
  V[src], each a projection of the node features read at a wrapped, clamped row; the edge features and the edge
  weights are the arguments untouched; the indicator matrices hold 1 where the column's head is the head and 0
  elsewhere.
-/
import proofs.«101658_j14508399526689_1_alg».proof.Proof.KI.Run
import proofs.«101658_j14508399526689_1_alg».proof.Proof.KI.Final0
import proofs.«101658_j14508399526689_1_alg».proof.Proof.KI.Final1
import proofs.«101658_j14508399526689_1_alg».proof.Proof.KI.Args
import proofs.«101658_j14508399526689_1_alg».proof.Proof.Spec
import proofs.«101658_j14508399526689_1_alg».proof.Proof.LibRowGather
import proofs.«101658_j14508399526689_1_alg».proof.Proof.LibIndexWrap
import proofs.«101658_j14508399526689_1_alg».proof.Proof.LibColumnJoin
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## Buffers no stretch and no region before the edge region writes -/

/-- A buffer the first stretch does not write holds after it what the launch memory holds. -/
theorem W1_of (c : Dev nD) (r : Ref sig .tc) (h : r ∉ hostOps0_W) :
    W1 m c (Proc.devRef .tc r) = m ((c : Thread nD τ).loc r) :=
  StableHlo.after_of_writes_sub hostOps0 _ hostOps0_writes h

/-- A buffer the second stretch does not write holds after it what it held after the node projection. -/
theorem W3_of (c : Dev nD) (r : Ref sig .tc) (h : r ∉ hostOps1_W) :
    W3 m c (Proc.devRef .tc r) = W2 m c (Proc.devRef .tc r) :=
  StableHlo.after_of_writes_sub hostOps1 _ hostOps1_writes h

theorem W3_arg1 (c : Dev nD) : W3 m c (Proc.devRef .tc main_arg1) = m ((c : Thread nD τ).loc main_arg1) :=
  (W3_of m c main_arg1 (by decide)).trans ((W2_of_ne m c main_arg1 (by decide)).trans (W1_of m c main_arg1 (by decide)))
theorem W3_arg5 (c : Dev nD) : W3 m c (Proc.devRef .tc main_arg5) = m ((c : Thread nD τ).loc main_arg5) :=
  (W3_of m c main_arg5 (by decide)).trans ((W2_of_ne m c main_arg5 (by decide)).trans (W1_of m c main_arg5 (by decide)))

theorem entry_ef (c : Dev nD) (e : Fin 400000) (k : Fin 128) : efArr (V3 m) c (ix2 e k) = aEF m c e k :=
  congrFun (W3_arg1 m c) (ix2 e k)
theorem entry_we (c : Dev nD) (k f : Fin 128) : weArr (V3 m) c (ix2 k f) = aWe m c k f :=
  congrFun (W3_arg5 m c) (ix2 k f)

/-! ## The two indicator matrices -/

/-- The bit pattern of 1. -/
theorem ofBits_one_f32 : Ideal.ofBits .f32 0x3F800000#32 = 1 := by
  simp [Ideal.ofBits, Ideal.ieee, -EReal.coe_mul]; norm_num

/-- The 128 × 8 table, row-major: entry 8·k + h is the pattern of 1 where column k belongs to head h, of 0 elsewhere. -/
theorem lit0t_eq : ∀ (k : Fin 128) (h : Fin 8),
    lit0t (k.val * 8 + h.val) = if k.val / 16 = h.val then 0x3F800000#32 else 0x00000000#32 := by decide +kernel

/-- The 8 × 128 table, row-major: entry 128·h + f is the pattern of 1 where column f belongs to head h, of 0 elsewhere. -/
theorem lit1t_eq : ∀ (h : Fin 8) (f : Fin 128),
    lit1t (h.val * 128 + f.val) = if f.val / 16 = h.val then 0x3F800000#32 else 0x00000000#32 := by decide +kernel

theorem lit0_val (x : Fin 1024) : lit0 x = lit0t x.val := rfl
theorem lit1_val (x : Fin 1024) : lit1 x = lit1t x.val := rfl

/-- The pattern of 1 or of 0, read as a number. -/
theorem ofBits_indicator (p : Prop) [Decidable p] :
    Ideal.ofBits .f32 (if p then 0x3F800000#32 else 0x00000000#32) = if p then 1 else 0 := by
  by_cases hp : p
  · rw [if_pos hp, if_pos hp]; exact ofBits_one_f32
  · rw [if_neg hp, if_neg hp]; exact Ideal.ofBits_zero_f32

theorem W1_cst (c : Dev nD) :
    (W1 m c (Proc.devRef .tc main_cst) : S128x8.Idx → EReal) = fun i => Ideal.ofBits .f32 (lit0 (S128x8.rowMajor i)) := by
  show StableHlo.after hostOps0 (W0 m c) (Proc.devRef .tc main_cst) = _
  after_results; rfl

theorem W1_cst_0 (c : Dev nD) :
    (W1 m c (Proc.devRef .tc main_cst_0) : S8x128.Idx → EReal) = fun i => Ideal.ofBits .f32 (lit1 (S8x128.rowMajor i)) := by
  show StableHlo.after hostOps0 (W0 m c) (Proc.devRef .tc main_cst_0) = _
  after_results; rfl

theorem entry_m (c : Dev nD) (k : Fin 128) (h : Fin 8) : mArr (V3 m) c (ix2 k h) = if k.val / 16 = h.val then 1 else 0 := by
  have e : (V3 m c main_cst : S128x8.Idx → EReal) = fun i => Ideal.ofBits .f32 (lit0 (S128x8.rowMajor i)) :=
    (W3_of m c main_cst (by decide)).trans ((W2_of_ne m c main_cst (by decide)).trans (W1_cst m c))
  have hv : ((S128x8.rowMajor (ix2 k h) : Fin 1024)).val = k.val * 8 + h.val := Shape.rowMajor_val_two (ix2 k h)
  refine (congrFun e (ix2 k h)).trans ?_
  refine (congrArg (Ideal.ofBits .f32) ((lit0_val _).trans ((congrArg lit0t hv).trans (lit0t_eq k h)))).trans ?_
  exact ofBits_indicator _

theorem entry_mt (c : Dev nD) (h : Fin 8) (f : Fin 128) : mtArr (V3 m) c (ix2 h f) = if f.val / 16 = h.val then 1 else 0 := by
  have e : (V3 m c main_cst_0 : S8x128.Idx → EReal) = fun i => Ideal.ofBits .f32 (lit1 (S8x128.rowMajor i)) :=
    (W3_of m c main_cst_0 (by decide)).trans ((W2_of_ne m c main_cst_0 (by decide)).trans (W1_cst_0 m c))
  have hv : ((S8x128.rowMajor (ix2 h f) : Fin 1024)).val = h.val * 128 + f.val := Shape.rowMajor_val_two (ix2 h f)
  refine (congrFun e (ix2 h f)).trans ?_
  refine (congrArg (Ideal.ofBits .f32) ((lit1_val _).trans ((congrArg lit1t hv).trans (lit1t_eq h f)))).trans ?_
  exact ofBits_indicator _

/-! ## The joined weights and the node projection -/

/-- The joined weights after the first stretch: the three node weight matrices side by side. -/
theorem W1_v0 (c : Dev nD) :
    (W1 m c (Proc.devRef .tc main_v0) : S128x384.Idx → EReal)
      = concatenate S128x384 1 [⟨S128x128, argWq m c⟩, ⟨S128x128, argWk m c⟩, ⟨S128x128, argWv m c⟩]
          concatenates_S128x128_S128x128_S128x128_S128x384_d1 := by
  show StableHlo.after hostOps0 (W0 m c) (Proc.devRef .tc main_v0) = _
  after_results; rfl

/-- Columns 0–127 of the joined weights are the query weights. -/
theorem wqkv_q (c : Dev nD) (k f : Fin 128) :
    wqkvArr (V1 m) c (ix2 k (⟨f.val, by omega⟩ : Fin 384)) = aWq m c k f := by
  refine (congrFun (W1_v0 m c) _).trans ?_
  exact ColumnJoin.join3_first (argWq m c) (argWk m c) (argWv m c) _ k (⟨f.val, by omega⟩ : Fin 384) f.isLt

/-- Columns 128–255 of the joined weights are the key weights. -/
theorem wqkv_k (c : Dev nD) (k f : Fin 128) :
    wqkvArr (V1 m) c (ix2 k (⟨128 + f.val, by omega⟩ : Fin 384)) = aWk m c k f := by
  refine (congrFun (W1_v0 m c) _).trans ?_
  refine (ColumnJoin.join3_second (argWq m c) (argWk m c) (argWv m c) _ k (⟨128 + f.val, by omega⟩ : Fin 384)
    (Nat.le_add_right _ _) (by show 128 + f.val - 128 < 128; omega)).trans ?_
  exact congrArg (argWk m c) (congrArg (ix2 k) (Fin.ext (by show 128 + f.val - 128 = f.val; omega)))

/-- Columns 256–383 of the joined weights are the value weights. -/
theorem wqkv_v (c : Dev nD) (k f : Fin 128) :
    wqkvArr (V1 m) c (ix2 k (⟨256 + f.val, by omega⟩ : Fin 384)) = aWv m c k f := by
  refine (congrFun (W1_v0 m c) _).trans ?_
  refine (ColumnJoin.join3_third (argWq m c) (argWk m c) (argWv m c) _ k (⟨256 + f.val, by omega⟩ : Fin 384)
    (by show 128 + 128 ≤ 256 + f.val; omega) (by show 256 + f.val - 128 - 128 < 128; omega)).trans ?_
  exact congrArg (argWv m c) (congrArg (ix2 k) (Fin.ext (by show 256 + f.val - 128 - 128 = f.val; omega)))

/-- The node features as the node projection finds them are the argument. -/
theorem node_eq (c : Dev nD) (n : Fin 50000) (k : Fin 128) : nodeArr (V1 m) c (ix2 n k) = aX m c n k :=
  congrFun (W1_of m c main_arg0 (by decide)) (ix2 n k)

/-- The product after the node projection, as the second stretch finds it. -/
theorem W2_v1 (c : Dev nD) : (W2 m c (Proc.devRef .tc main_v1) : S50000x384.Idx → EReal) = qkvOut (V1 m) c :=
  W2_arr m c 2

/-- Columns 0–127 of the product: the query projection. -/
theorem qkv_q (c : Dev nD) (n : Fin 50000) (f : Fin 128) :
    qkvOut (V1 m) c (ix2 n (⟨f.val, by omega⟩ : Fin 384)) = Cert.Spec.proj (aX m c) (aWq m c) n f := by
  rw [final0]
  exact Finset.sum_congr rfl fun k _ => congrArg₂ (· * ·) (node_eq m c n k) (wqkv_q m c k f)

/-- Columns 128–255 of the product: the key projection. -/
theorem qkv_k (c : Dev nD) (n : Fin 50000) (f : Fin 128) :
    qkvOut (V1 m) c (ix2 n (⟨128 + f.val, by omega⟩ : Fin 384)) = Cert.Spec.proj (aX m c) (aWk m c) n f := by
  rw [final0]
  exact Finset.sum_congr rfl fun k _ => congrArg₂ (· * ·) (node_eq m c n k) (wqkv_k m c k f)

/-- Columns 256–383 of the product: the value projection. -/
theorem qkv_v (c : Dev nD) (n : Fin 50000) (f : Fin 128) :
    qkvOut (V1 m) c (ix2 n (⟨256 + f.val, by omega⟩ : Fin 384)) = Cert.Spec.proj (aX m c) (aWv m c) n f := by
  rw [final0]
  exact Finset.sum_congr rfl fun k _ => congrArg₂ (· * ·) (node_eq m c n k) (wqkv_v m c k f)

/-! ## The wrapped node numbers and the gathered rows -/

/-- Rows of the 50000-row table gathered by node numbers wrapped as the program wraps them (50000 added to a
    negative one, the result laid out as a column), read at (e, f): the table at the wrapped and clamped row. -/
theorem gather_wrapped_apply (x : S50000x128.Idx → EReal) (v : S400000.Idx → BitVec 32) (e : Fin 400000) (f : Fin 128) :
    Host.gather gather_S50000x128_S400000x1_S400000x128_1_0_n_n_0_1_1128 x
        (broadcastInDim S400000x1 ![0] bcast_S400000_S400000x1_0
          (select (cmpi .slt v (broadcastInDim S400000 ![] bcast_S_S400000 (constantI S_ 32 0#32)))
            (addi v (broadcastInDim S400000 ![] bcast_S_S400000 (constantI S_ 32 50000#32))) v)) (ix2 e f)
      = x (ix2 (Cert.Spec.gRow (v (ix1 e))) f) := by
  refine (RowGather.gather_rows_apply (N := 50000) (C := 128) (R := 400000) (by omega)
    gather_S50000x128_S400000x1_S400000x128_1_0_n_n_0_1_1128_wf x _ e f).trans ?_
  refine congrArg x (congrArg (ix2 · f) (Fin.ext ?_))
  exact congrArg (fun b : BitVec 32 => min b.toInt.toNat (50000 - 1))
    (IndexWrap.asColumn_apply _ bcast_S400000_S400000x1_0 e (0 : Fin 1))

/-- The source node numbers as the second stretch finds them are the argument. -/
theorem W2_arg6 (c : Dev nD) : W2 m c (Proc.devRef .tc main_arg6) = m ((c : Thread nD τ).loc main_arg6) :=
  (W2_of_ne m c main_arg6 (by decide)).trans (W1_of m c main_arg6 (by decide))
/-- The destination node numbers as the second stretch finds them are the argument. -/
theorem W2_arg7 (c : Dev nD) : W2 m c (Proc.devRef .tc main_arg7) = m ((c : Thread nD τ).loc main_arg7) :=
  (W2_of_ne m c main_arg7 (by decide)).trans (W1_of m c main_arg7 (by decide))

/-- The gathered key rows, as the second stretch makes them: rows of columns 128–255 of the product, by the wrapped
    source numbers. -/
theorem W3_v11 (c : Dev nD) :
    (W3 m c (Proc.devRef .tc main_v11) : S400000x128.Idx → EReal)
      = Host.gather gather_S50000x128_S400000x1_S400000x128_1_0_n_n_0_1_1128
          (extractStridedSlice S50000x128 ![0, 128] (W2 m c (Proc.devRef .tc main_v1) : S50000x384.Idx → EReal) slices_S50000x384_S50000x128_0_128)
          (broadcastInDim S400000x1 ![0] bcast_S400000_S400000x1_0
            (select (cmpi .slt (W2 m c (Proc.devRef .tc main_arg6) : S400000.Idx → BitVec 32) (broadcastInDim S400000 ![] bcast_S_S400000 (constantI S_ 32 0#32)))
              (addi (W2 m c (Proc.devRef .tc main_arg6) : S400000.Idx → BitVec 32) (broadcastInDim S400000 ![] bcast_S_S400000 (constantI S_ 32 50000#32)))
              (W2 m c (Proc.devRef .tc main_arg6) : S400000.Idx → BitVec 32))) := by
  show StableHlo.after hostOps1 (W2 m c) (Proc.devRef .tc main_v11) = _
  after_results
  all_goals rfl

/-- The gathered query rows: rows of columns 0–127 of the product, by the wrapped destination numbers. -/
theorem W3_v18 (c : Dev nD) :
    (W3 m c (Proc.devRef .tc main_v18) : S400000x128.Idx → EReal)
      = Host.gather gather_S50000x128_S400000x1_S400000x128_1_0_n_n_0_1_1128
          (extractStridedSlice S50000x128 ![0, 0] (W2 m c (Proc.devRef .tc main_v1) : S50000x384.Idx → EReal) slices_S50000x384_S50000x128_0_0)
          (broadcastInDim S400000x1 ![0] bcast_S400000_S400000x1_0
            (select (cmpi .slt (W2 m c (Proc.devRef .tc main_arg7) : S400000.Idx → BitVec 32) (broadcastInDim S400000 ![] bcast_S_S400000 (constantI S_ 32 0#32)))
              (addi (W2 m c (Proc.devRef .tc main_arg7) : S400000.Idx → BitVec 32) (broadcastInDim S400000 ![] bcast_S_S400000 (constantI S_ 32 50000#32)))
              (W2 m c (Proc.devRef .tc main_arg7) : S400000.Idx → BitVec 32))) := by
  show StableHlo.after hostOps1 (W2 m c) (Proc.devRef .tc main_v18) = _
  after_results_simp
  all_goals rfl

/-- The gathered value rows: rows of columns 256–383 of the product, by the wrapped source numbers. -/
theorem W3_v25 (c : Dev nD) :
    (W3 m c (Proc.devRef .tc main_v25) : S400000x128.Idx → EReal)
      = Host.gather gather_S50000x128_S400000x1_S400000x128_1_0_n_n_0_1_1128
          (extractStridedSlice S50000x128 ![0, 256] (W2 m c (Proc.devRef .tc main_v1) : S50000x384.Idx → EReal) slices_S50000x384_S50000x128_0_256)
          (broadcastInDim S400000x1 ![0] bcast_S400000_S400000x1_0
            (select (cmpi .slt (W2 m c (Proc.devRef .tc main_arg6) : S400000.Idx → BitVec 32) (broadcastInDim S400000 ![] bcast_S_S400000 (constantI S_ 32 0#32)))
              (addi (W2 m c (Proc.devRef .tc main_arg6) : S400000.Idx → BitVec 32) (broadcastInDim S400000 ![] bcast_S_S400000 (constantI S_ 32 50000#32)))
              (W2 m c (Proc.devRef .tc main_arg6) : S400000.Idx → BitVec 32))) := by
  show StableHlo.after hostOps1 (W2 m c) (Proc.devRef .tc main_v25) = _
  after_results_simp
  all_goals rfl

/-- A column block of the product read at a row and a column. -/
theorem slice_apply (o : Nat) (x : S50000x384.Idx → EReal) (hs : S50000x384.Slices ![0, o] S50000x128)
    (n : Fin 50000) (f : Fin 128) (j : Fin 384) (hj : j.val = o + f.val) :
    extractStridedSlice S50000x128 ![0, o] x hs (ix2 n f) = x (ix2 n j) := by
  refine extractStridedSlice_apply ![0, o] x hs (ix2 n f) (ix2 n j) fun a => ?_
  match a with
  | ⟨0, _⟩ => exact (Nat.zero_add _).symm
  | ⟨1, _⟩ => exact hj

theorem entry_ks (c : Dev nD) (e : Fin 400000) (f : Fin 128) :
    ksArr (V3 m) c (ix2 e f) = Cert.Spec.proj (aX m c) (aWk m c) (Cert.Spec.gRow (aSrc m c e)) f := by
  refine (congrFun (W3_v11 m c) (ix2 e f)).trans ?_
  refine (gather_wrapped_apply _ _ e f).trans ?_
  refine (slice_apply 128 _ _ _ f (⟨128 + f.val, by omega⟩ : Fin 384) rfl).trans ?_
  refine (congrFun (W2_v1 m c) _).trans ?_
  refine (qkv_k m c _ f).trans ?_
  exact congrArg (fun v => Cert.Spec.proj (aX m c) (aWk m c) (Cert.Spec.gRow v) f) (congrFun (W2_arg6 m c) (ix1 e))

theorem entry_qd (c : Dev nD) (e : Fin 400000) (f : Fin 128) :
    qdArr (V3 m) c (ix2 e f) = Cert.Spec.proj (aX m c) (aWq m c) (Cert.Spec.gRow (aDst m c e)) f := by
  refine (congrFun (W3_v18 m c) (ix2 e f)).trans ?_
  refine (gather_wrapped_apply _ _ e f).trans ?_
  refine (slice_apply 0 _ _ _ f (⟨f.val, by omega⟩ : Fin 384) (Nat.zero_add _).symm).trans ?_
  refine (congrFun (W2_v1 m c) _).trans ?_
  refine (qkv_q m c _ f).trans ?_
  exact congrArg (fun v => Cert.Spec.proj (aX m c) (aWq m c) (Cert.Spec.gRow v) f) (congrFun (W2_arg7 m c) (ix1 e))

theorem entry_vs (c : Dev nD) (e : Fin 400000) (f : Fin 128) :
    vsArr (V3 m) c (ix2 e f) = Cert.Spec.proj (aX m c) (aWv m c) (Cert.Spec.gRow (aSrc m c e)) f := by
  refine (congrFun (W3_v25 m c) (ix2 e f)).trans ?_
  refine (gather_wrapped_apply _ _ e f).trans ?_
  refine (slice_apply 256 _ _ _ f (⟨256 + f.val, by omega⟩ : Fin 384) rfl).trans ?_
  refine (congrFun (W2_v1 m c) _).trans ?_
  refine (qkv_v m c _ f).trans ?_
  exact congrArg (fun v => Cert.Spec.proj (aX m c) (aWv m c) (Cert.Spec.gRow v) f) (congrFun (W2_arg6 m c) (ix1 e))

end Cert.KernelIdeal.Hand

end
-- ==== Proof.KI.EdgeSpec.lean ====
/-
  The edge region's three output arrays are the specification's score, spread attention weight and weighted
  value. The region finds the gathered projections, the edge features and weights and the two indicator matrices
  (what it is entered with, in terms of the arguments); what it leaves is known entry by entry. A sum over all 128
  columns against the indicator matrix keeps exactly the sixteen columns of one head, each times 1, and drops the
  others, each times 0 — on the extended reals 0 times anything is 0 — and a sum over the 8 heads against the
  transposed indicator keeps the one head of the column.
-/
import proofs.«101658_j14508399526689_1_alg».proof.Proof.KI.Final1
import proofs.«101658_j14508399526689_1_alg».proof.Proof.KI.Entry
import proofs.«101658_j14508399526689_1_alg».proof.Proof.KI.Args
import proofs.«101658_j14508399526689_1_alg».proof.Proof.Spec
import Idealize.ShloMosaic.Lib.ValueIdx
import Mathlib.Algebra.BigOperators.Group.Finset.Basic
import Mathlib.Data.EReal.Inv

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- A sum over the 128 columns against the indicator of head `h` keeps the sixteen columns `16·h + d`: a column
    of the head is multiplied by 1, any other by 0, and 0 times anything is 0 on the extended reals. The columns
    with `k / 16 = h` correspond to the places `d = k % 16`. -/
theorem sum_mul_headIndicator (g : Fin 128 → EReal) (h : Fin 8) :
    ∑ k : Fin 128, g k * (if k.val / 16 = h.val then (1 : EReal) else 0)
      = ∑ d : Fin 16, g (Cert.Spec.headIx h d) := by
  simp only [mul_ite, mul_one, mul_zero]
  rw [← Finset.sum_filter]
  symm
  refine Finset.sum_nbij' (fun d => Cert.Spec.headIx h d)
    (fun k => (⟨k.val % 16, Nat.mod_lt _ (by norm_num)⟩ : Fin 16)) ?_ ?_ ?_ ?_ ?_
  · intro d _
    have hd := d.isLt
    simp only [Finset.mem_filter, Finset.mem_univ, true_and, Cert.Spec.headIx]
    omega
  · intro k _
    exact Finset.mem_univ _
  · intro d _
    have hd := d.isLt
    apply Fin.ext
    simp only [Cert.Spec.headIx]
    omega
  · intro k hk
    simp only [Finset.mem_filter, Finset.mem_univ, true_and] at hk
    apply Fin.ext
    simp only [Cert.Spec.headIx]
    omega
  · intro d _
    rfl

/-- A sum over the 8 heads against the indicator of the column's head keeps that one head. -/
theorem sum_mul_indicator_headOf (a : Fin 8 → EReal) (f : Fin 128) :
    ∑ h : Fin 8, a h * (if f.val / 16 = h.val then (1 : EReal) else 0) = a (Cert.Spec.headOf f) := by
  rw [Finset.sum_eq_single (Cert.Spec.headOf f)]
  · have : f.val / 16 = (Cert.Spec.headOf f).val := rfl
    rw [if_pos this, mul_one]
  · intro h _ hne
    have hn : ¬ (f.val / 16 = h.val) := by
      intro hh
      apply hne
      apply Fin.ext
      exact hh.symm
    rw [if_neg hn, mul_zero]
  · intro hn
    exact absurd (Finset.mem_univ _) hn

/-- The score array is the specification's score: the gathered key and query rows are the projections at the
    source and destination rows, and the edge features against the edge weights are the edge projection. -/
theorem score_spec (c : Dev nD) (e : Fin 400000) (f : Fin 128) :
    scoreOut (V3 m) c (ix2 e f) = Cert.Spec.score (aX m c) (aEF m c) (aWq m c) (aWk m c) (aWe m c) (aSrc m c) (aDst m c) e f := by
  refine (final1_7 (V3 m) c e f).trans ?_
  rw [entry_ks m c e f, entry_qd m c e f]
  have hsum : (∑ k : Fin 128, efArr (V3 m) c (ix2 e k) * weArr (V3 m) c (ix2 k f))
      = Cert.Spec.proj (aEF m c) (aWe m c) e f := by
    rw [Cert.Spec.proj]
    refine Finset.sum_congr rfl (fun k _ => ?_)
    rw [entry_ef m c e k, entry_we m c k f]
  rw [hsum, Cert.Spec.score]

/-- The spread weight at a column is the attention weight of the column's head: the inner sum against the
    indicator collects the head's sixteen scores, the outer sum against the transposed indicator picks the head. -/
theorem spread_spec (c : Dev nD) (e : Fin 400000) (f : Fin 128) :
    spreadOut (V3 m) c (ix2 e f) = Cert.Spec.attn (aX m c) (aEF m c) (aWq m c) (aWk m c) (aWe m c) (aSrc m c) (aDst m c) e (Cert.Spec.headOf f) := by
  refine (final1_9 (V3 m) c e f).trans ?_
  have hin : ∀ h : Fin 8,
      (∑ k : Fin 128, scoreOut (V3 m) c (ix2 e k) * mArr (V3 m) c (ix2 k h))
        = ∑ d : Fin 16, Cert.Spec.score (aX m c) (aEF m c) (aWq m c) (aWk m c) (aWe m c) (aSrc m c) (aDst m c) e
            (Cert.Spec.headIx h d) := by
    intro h
    rw [← sum_mul_headIndicator]
    refine Finset.sum_congr rfl (fun k _ => ?_)
    rw [score_spec m c e k, entry_m m c k h]
  have hout : ∀ h : Fin 8,
      Ideal.exp (Cert.Spec.clip5 (∑ k : Fin 128, scoreOut (V3 m) c (ix2 e k) * mArr (V3 m) c (ix2 k h)))
          * mtArr (V3 m) c (ix2 h f)
        = Cert.Spec.attn (aX m c) (aEF m c) (aWq m c) (aWk m c) (aWe m c) (aSrc m c) (aDst m c) e h
            * (if f.val / 16 = h.val then (1 : EReal) else 0) := by
    intro h
    rw [hin h, entry_mt m c h f, Cert.Spec.attn]
  rw [Finset.sum_congr rfl (fun h _ => hout h)]
  exact sum_mul_indicator_headOf _ f

/-- The weighted value is the gathered value row times the spread weight: the specification's contribution. -/
theorem wval_spec (c : Dev nD) (e : Fin 400000) (f : Fin 128) :
    wvalOut (V3 m) c (ix2 e f) = Cert.Spec.contrib (aX m c) (aEF m c) (aWq m c) (aWk m c) (aWv m c) (aWe m c) (aSrc m c) (aDst m c) e f := by
  refine (final1_8 (V3 m) c e f).trans ?_
  rw [entry_vs m c e f, spread_spec m c e f, Cert.Spec.contrib]

end Cert.KernelIdeal.Hand

end
-- ==== Proof.LibScatterRows.lean ====
/-
  Rows added into a table at a column of row numbers, read at coordinates; and rows of zeros appended.

  `table.at[idx].add(upd)` for a table of `N` rows and `C` columns, `R` row numbers laid out as an `R × 1`
  column and `R × C` updates is a scatter with update window axis `1`, inserted window axis `0`, the start index
  going to operand axis `0`, the index vector on axis `1`. Update `(e, f)` lands on the table's entry
  `(idx[e, 0], f)` when the row number, read as a signed integer and NOT clamped, is a row of the table, and is
  dropped otherwise. On the extended reals the result at an entry is the table's entry plus the sum of the updates
  landing on it, so two such scatters whose row numbers and updates agree row by row, the longer one's further
  rows of updates being zeros, give the same table: a zero update adds nothing wherever it lands.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- Those dimension numbers for a table `[N, C]`, row numbers `[R, 1]` and updates `[R, C]`; their conditions
    `wf` are decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where an update in column `f` whose row number is the word `t` lands: row `t` read signed, if that is a row
    of the table; nowhere otherwise. -/
def land (N C : Nat) {w : Nat} (t : BitVec w) (f : Fin C) : Option (⟨2, ![N, C]⟩ : Shape).Idx :=
  if h : 0 ≤ t.toInt ∧ t.toInt < (N : Int) then some (ix2 (⟨t.toInt.toNat, by omega⟩ : Fin N) f) else none

/-- THE LANDING PLACE of update `(e, f)`: `land` of the row number `idx[e, 0]` and the column `f`. -/
theorem resultIdx_rows {N C R w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) :
    (rowDims N C R wf).resultIdx? (ix2 e f) idx = land N C (idx (ix2 e (0 : Fin 1))) f := by
  have hs0 : (rowDims N C R wf).start (ix2 e f) idx 0 = (idx (ix2 e (0 : Fin 1))).toInt := by
    unfold ScatterDims.start
    rw [dif_pos (show (0 : Fin 2) ∈ (rowDims N C R wf).scatterDimsToOperandDims from List.mem_singleton.mpr rfl)]
    have hsi : (rowDims N C R wf).siIdx (ix2 e f) ⟨List.idxOf (0 : Fin 2) (rowDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C R wf).start (ix2 e f) idx 1 = 0 := by
    unfold ScatterDims.start
    rw [dif_neg (fun h : (1 : Fin 2) ∈ (rowDims N C R wf).scatterDimsToOperandDims =>
      Nat.one_ne_zero (Fin.val_eq_of_eq (List.mem_singleton.mp h)))]
  have hk0 : (0 : Fin 2) ∉ (rowDims N C R wf).sKept := by
    show (0 : Fin 2) ∉ (List.finRange 2).filter (fun a => a ∉ [(0 : Fin 2)])
    decide
  have hk1 : (1 : Fin 2) ∈ (rowDims N C R wf).sKept := by
    show (1 : Fin 2) ∈ (List.finRange 2).filter (fun a => a ∉ [(0 : Fin 2)])
    decide
  have hw0 : (rowDims N C R wf).window (ix2 e f) 0 = 0 := by
    unfold ScatterDims.window
    rw [dif_neg hk0]
  have hw1 : (rowDims N C R wf).window (ix2 e f) 1 = f.val := by
    unfold ScatterDims.window
    rw [dif_pos hk1]
    rfl
  have hf : f.val < C := f.isLt
  unfold ScatterDims.resultIdx? land
  by_cases h : 0 ≤ (idx (ix2 e (0 : Fin 1))).toInt ∧ (idx (ix2 e (0 : Fin 1))).toInt < (N : Int)
  · have hall : ∀ a, 0 ≤ (rowDims N C R wf).start (ix2 e f) idx a + ((rowDims N C R wf).window (ix2 e f) a : Int)
        ∧ (rowDims N C R wf).start (ix2 e f) idx a + ((rowDims N C R wf).window (ix2 e f) a : Int)
          < ((⟨2, ![N, C]⟩ : Shape).size a : Int) := by
      intro a
      match a with
      | ⟨0, _⟩ =>
        show 0 ≤ (rowDims N C R wf).start (ix2 e f) idx 0 + ((rowDims N C R wf).window (ix2 e f) 0 : Int)
          ∧ (rowDims N C R wf).start (ix2 e f) idx 0 + ((rowDims N C R wf).window (ix2 e f) 0 : Int) < (N : Int)
        rw [hs0, hw0]; omega
      | ⟨1, _⟩ =>
        show 0 ≤ (rowDims N C R wf).start (ix2 e f) idx 1 + ((rowDims N C R wf).window (ix2 e f) 1 : Int)
          ∧ (rowDims N C R wf).start (ix2 e f) idx 1 + ((rowDims N C R wf).window (ix2 e f) 1 : Int) < (C : Int)
        rw [hs1, hw1]; omega
    rw [dif_pos hall, dif_pos h]
    congr 1
    funext a
    refine Fin.ext ?_
    match a with
    | ⟨0, _⟩ =>
      show ((rowDims N C R wf).start (ix2 e f) idx 0 + ((rowDims N C R wf).window (ix2 e f) 0 : Int)).toNat
        = (idx (ix2 e (0 : Fin 1))).toInt.toNat
      rw [hs0, hw0]; simp
    | ⟨1, _⟩ =>
      show ((rowDims N C R wf).start (ix2 e f) idx 1 + ((rowDims N C R wf).window (ix2 e f) 1 : Int)).toNat = f.val
      rw [hs1, hw1]; simp
  · rw [dif_neg (fun hall => h (by
      have h0 := hall 0
      have e0 : ((⟨2, ![N, C]⟩ : Shape).size 0 : Int) = (N : Int) := rfl
      rw [hs0, hw0, e0] at h0
      omega)), dif_neg h]

/-- Sums over the updates landing on one place, for two families of updates the second of which extends the first
    (through `emb`) by updates that are all `0`: the two sums agree. -/
theorem sum_landing_extend {U UP T M : Type} [Fintype U] [Fintype UP] [DecidableEq UP] [AddCommMonoid M]
    (emb : U ↪ UP) (f : U → Option T) (fP : UP → Option T) (g : U → M) (gP : UP → M)
    (hf : ∀ u, fP (emb u) = f u) (hg : ∀ u, gP (emb u) = g u) (h0 : ∀ v, (∀ u, emb u ≠ v) → gP v = 0) (i : T)
    [DecidablePred fun v => fP v = some i] [DecidablePred fun u => f u = some i] :
    ∑ v ∈ Finset.univ.filter (fun v => fP v = some i), gP v
      = ∑ u ∈ Finset.univ.filter (fun u => f u = some i), g u := by
  have hmap : ∑ u ∈ Finset.univ.filter (fun u => f u = some i), g u
      = ∑ v ∈ (Finset.univ.filter (fun u => f u = some i)).map emb, gP v := by
    rw [Finset.sum_map]
    exact Finset.sum_congr rfl fun u _ => (hg u).symm
  rw [hmap]
  symm
  refine Finset.sum_subset ?_ ?_
  · intro v hv
    obtain ⟨u, hu, rfl⟩ := Finset.mem_map.mp hv
    exact Finset.mem_filter.mpr ⟨Finset.mem_univ _, (hf u).trans (Finset.mem_filter.mp hu).2⟩
  · intro v hv hnv
    refine h0 v fun u hu => hnv ?_
    subst hu
    exact Finset.mem_map.mpr ⟨u, Finset.mem_filter.mpr ⟨Finset.mem_univ _,
      (hf u).symm.trans (Finset.mem_filter.mp hv).2⟩, rfl⟩

/-- The first `R` of `R'` rows, entry by entry. -/
def firstRows {R R' C : Nat} (hRR : R ≤ R') : (⟨2, ![R, C]⟩ : Shape).Idx ↪ (⟨2, ![R', C]⟩ : Shape).Idx where
  toFun u := ix2 (Fin.castLE hRR (u 0)) (u 1)
  inj' u v h := by
    obtain ⟨e, f, rfl⟩ : ∃ (e : Fin R) (f : Fin C), u = ix2 e f := ⟨u 0, u 1, eq_ix2 u⟩
    obtain ⟨e', f', rfl⟩ : ∃ (e' : Fin R) (f' : Fin C), v = ix2 e' f' := ⟨v 0, v 1, eq_ix2 v⟩
    have h0 : (Fin.castLE hRR e).val = (Fin.castLE hRR e').val := congrArg (fun t => (t 0).val) h
    have h1 : f.val = f'.val := congrArg (fun t => (t 1).val) h
    have he : e = e' := Fin.ext h0
    have hf : f = f' := Fin.ext h1
    rw [he, hf]

theorem firstRows_ix2 {R R' C : Nat} (hRR : R ≤ R') (e : Fin R) (f : Fin C) :
    firstRows (C := C) hRR (ix2 e f) = ix2 (Fin.castLE hRR e) f := rfl

/-- ROWS OF ZEROS APPENDED: a scatter-add of `R'` rows whose first `R` row numbers and rows of updates are those of
    a scatter-add of `R` rows into the same table, and whose further rows of updates are all `0`, gives the same
    table on the extended reals. -/
theorem scatterAdd_rows_extend {N C R R' w : Nat} (hRR : R ≤ R')
    (wf : ScatterDims.WF ⟨2, ![N, C]⟩ ⟨2, ![R, 1]⟩ ⟨2, ![R, C]⟩ [1] [0] [0] 1)
    (wf' : ScatterDims.WF ⟨2, ![N, C]⟩ ⟨2, ![R', 1]⟩ ⟨2, ![R', C]⟩ [1] [0] [0] 1)
    (x : FVec Ideal ⟨2, ![N, C]⟩ .f32)
    (idx : IVec ⟨2, ![R, 1]⟩ w) (idx' : IVec ⟨2, ![R', 1]⟩ w)
    (upd : FVec Ideal ⟨2, ![R, C]⟩ .f32) (upd' : FVec Ideal ⟨2, ![R', C]⟩ .f32)
    (hidx : ∀ e : Fin R, idx' (ix2 (Fin.castLE hRR e) (0 : Fin 1)) = idx (ix2 e (0 : Fin 1)))
    (hupd : ∀ (e : Fin R) (f : Fin C), upd' (ix2 (Fin.castLE hRR e) f) = upd (ix2 e f))
    (hzero : ∀ (e' : Fin R') (f : Fin C), R ≤ e'.val → upd' (ix2 e' f) = 0) :
    Host.scatterAdd (rowDims N C R' wf') x idx' upd' = Host.scatterAdd (rowDims N C R wf) x idx upd := by
  funext i
  show x i + _ = x i + _
  congr 1
  refine sum_landing_extend (firstRows hRR) (fun u => (rowDims N C R wf).resultIdx? u idx)
    (fun v => (rowDims N C R' wf').resultIdx? v idx') upd upd' ?_ ?_ ?_ i
  · intro u
    obtain ⟨e, f, rfl⟩ : ∃ (e : Fin R) (f : Fin C), u = ix2 e f := ⟨u 0, u 1, eq_ix2 u⟩
    show (rowDims N C R' wf').resultIdx? (ix2 (Fin.castLE hRR e) f) idx' = _
    rw [resultIdx_rows, resultIdx_rows, hidx]
  · intro u
    obtain ⟨e, f, rfl⟩ : ∃ (e : Fin R) (f : Fin C), u = ix2 e f := ⟨u 0, u 1, eq_ix2 u⟩
    exact hupd e f
  · intro v hv
    obtain ⟨e', f, rfl⟩ : ∃ (e' : Fin R') (f : Fin C), v = ix2 e' f := ⟨v 0, v 1, eq_ix2 v⟩
    refine hzero e' f ?_
    by_contra hlt
    have hlt' : e'.val < R := Nat.lt_of_not_le hlt
    exact hv (ix2 ⟨e'.val, hlt'⟩ f) rfl

end Idealize.ShloMosaic.ScatterRows

end
-- ==== Proof.KI.Value.lean ====
/-
  The program's two results in terms of the launch arguments. The last stretch of host operations adds the
  weighted-value rows and the spread-weight rows into node rows by destination node, adds ε to the second table,
  divides the first by it entry by entry, and lays the quotient and the score array out by head (column 16·h + d
  becomes head h, place d). A sum against an indicator matrix is a sum over one head's sixteen columns, and a
  spread through the transposed indicator picks the column's head; so the first result is the specification's
  h_out and the second its e_out.
-/
import proofs.«101658_j14508399526689_1_alg».proof.Proof.KI.Run
import proofs.«101658_j14508399526689_1_alg».proof.Proof.KI.Final1
import proofs.«101658_j14508399526689_1_alg».proof.Proof.KI.Entry
import proofs.«101658_j14508399526689_1_alg».proof.Proof.KI.EdgeSpec
import proofs.«101658_j14508399526689_1_alg».proof.Proof.KI.Args
import proofs.«101658_j14508399526689_1_alg».proof.Proof.Spec
import proofs.«101658_j14508399526689_1_alg».proof.Proof.LibScatterRows
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The two results after the run, at their literal types. -/
abbrev resH (c : Dev nD) : S50000x8x16.Idx → EReal := W5 m c (Proc.devRef .tc main_v36)
abbrev resE (c : Dev nD) : S400000x8x16.Idx → EReal := W5 m c (Proc.devRef .tc main_v37)

/-! ## Laying 128 columns out by head -/

/-- Laying 128 columns out as 8 heads of 16 places: head h, place d is column 16·h + d. -/
theorem byHead_apply {N : Nat} (x : (⟨2, ![N, 128]⟩ : Shape).Idx → EReal)
    (hc : (⟨2, ![N, 128]⟩ : Shape).ShapeCasts ⟨3, ![N, 8, 16]⟩) (n : Fin N) (h : Fin 8) (d : Fin 16) :
    shapeCast ⟨3, ![N, 8, 16]⟩ x hc (ix3 n h d) = x (ix2 n (Cert.Spec.headIx h d)) := by
  refine shapeCast_apply x hc (ix3 n h d) (ix2 n (Cert.Spec.headIx h d)) ?_
  rw [Shape.rowMajor_val_two, Shape.rowMajor_val_three]
  show n.val * 128 + (16 * h.val + d.val) = (n.val * 8 + h.val) * 16 + d.val
  omega

/-- The head of column 16·h + d is h. -/
theorem headOf_headIx (h : Fin 8) (d : Fin 16) : Cert.Spec.headOf (Cert.Spec.headIx h d) = h := by
  refine Fin.ext ?_
  show (16 * h.val + d.val) / 16 = h.val
  have := d.isLt
  omega

/-! ## Rows added into a table by row number, read at an entry -/

/-- An update that lands on entry (n, f) sits in column f. -/
theorem land_col {N C w : Nat} {t : BitVec w} {f' f : Fin C} {n : Fin N}
    (hl : ScatterRows.land N C t f' = some (ix2 n f)) : f' = f := by
  unfold ScatterRows.land at hl
  by_cases h : 0 ≤ t.toInt ∧ t.toInt < (N : Int)
  · rw [dif_pos h] at hl
    have h1 : f'.val = f.val := congrArg (fun u => (u 1).val) (Option.some.inj hl)
    exact Fin.ext h1
  · rw [dif_neg h] at hl
    cases hl

/-- The updates landing on entry (n, f) of the table are those of column f whose row number lands on row n. -/
theorem sum_landing_rows {N C R w : Nat}
    (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (n : Fin N) (f : Fin C)
    [DecidablePred fun u => (ScatterRows.rowDims N C R wf).resultIdx? u idx = some (ix2 n f)]
    [DecidablePred fun e : Fin R => ScatterRows.land N C (idx (ix2 e (0 : Fin 1))) f = some (ix2 n f)] :
    ∑ u ∈ Finset.univ.filter (fun u => (ScatterRows.rowDims N C R wf).resultIdx? u idx = some (ix2 n f)), upd u
      = ∑ e ∈ Finset.univ.filter (fun e : Fin R => ScatterRows.land N C (idx (ix2 e (0 : Fin 1))) f = some (ix2 n f)),
          upd (ix2 e f) := by
  symm
  refine Finset.sum_nbij' (fun e => ix2 e f) (fun u => u 0) ?_ ?_ ?_ ?_ ?_
  · intro e he
    exact Finset.mem_filter.mpr ⟨Finset.mem_univ _,
      (ScatterRows.resultIdx_rows wf idx e f).trans (Finset.mem_filter.mp he).2⟩
  · intro u hu
    obtain ⟨e, f', rfl⟩ : ∃ (e : Fin R) (f' : Fin C), u = ix2 e f' := ⟨u 0, u 1, eq_ix2 u⟩
    have hu2 := (Finset.mem_filter.mp hu).2
    rw [ScatterRows.resultIdx_rows] at hu2
    have hf : f' = f := land_col hu2
    subst hf
    exact Finset.mem_filter.mpr ⟨Finset.mem_univ _, hu2⟩
  · intro e _
    rfl
  · intro u hu
    obtain ⟨e, f', rfl⟩ : ∃ (e : Fin R) (f' : Fin C), u = ix2 e f' := ⟨u 0, u 1, eq_ix2 u⟩
    have hu2 := (Finset.mem_filter.mp hu).2
    rw [ScatterRows.resultIdx_rows] at hu2
    have hf : f' = f := land_col hu2
    subst hf
    rfl
  · intro e _
    rfl

/-- Landing on row n of a table of 50000 rows is the specification's landing condition on the row number. -/
theorem land_iff_lands (t : BitVec 32) (f : Fin 128) (n : Fin 50000) :
    ScatterRows.land 50000 128 t f = some (ix2 n f) ↔ Cert.Spec.lands t = some n := by
  unfold ScatterRows.land Cert.Spec.lands
  by_cases h : 0 ≤ t.toInt ∧ t.toInt < (50000 : Int)
  · have h' : 0 ≤ t.toInt ∧ t.toInt < ((50000 : Nat) : Int) := h
    rw [dif_pos h', dif_pos h]
    constructor
    · intro hl
      have h0 : t.toInt.toNat = n.val := congrArg (fun u => (u 0).val) (Option.some.inj hl)
      exact congrArg some (Fin.ext h0)
    · intro hl
      have h0 : t.toInt.toNat = n.val := congrArg Fin.val (Option.some.inj hl)
      exact congrArg some (congrArg (fun a => ix2 a f) (Fin.ext h0))
  · have h' : ¬ (0 ≤ t.toInt ∧ t.toInt < ((50000 : Nat) : Int)) := h
    rw [dif_neg h', dif_neg h]
    constructor
    · intro hl; cases hl
    · intro hl; cases hl

/-- Rows added into a table, read at an entry: the entry plus the sum of the updates landing on it. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- The program's scatter is rows added into a 50000 × 128 table at a 400000 × 1 column of row numbers. -/
theorem scatter_eq_rowDims : scatter_S50000x128_S400000x1_S400000x128_1_0_0_1
    = ScatterRows.rowDims 50000 128 400000 scatter_S50000x128_S400000x1_S400000x128_1_0_0_1_wf := rfl

/-- A column of row numbers against a table of zeros: entry (n, f) of the table after the rows are added in is the
    sum, over the rows whose number lands on n, of their entries in column f. -/
theorem rowsAdded_apply (idx : S400000.Idx → BitVec 32) (upd : S400000x128.Idx → EReal) (n : Fin 50000) (f : Fin 128) :
    Host.scatterAdd (F := Ideal) scatter_S50000x128_S400000x1_S400000x128_1_0_0_1
        (broadcastInDim S50000x128 ![] bcast_S_S50000x128 (constant (F := Ideal) S_ .f32 0x00000000#32))
        (broadcastInDim S400000x1 ![0] bcast_S400000_S400000x1_0 idx) upd (ix2 n f)
      = ∑ e ∈ Finset.univ.filter (fun e : Fin 400000 => Cert.Spec.lands (idx (ix1 e)) = some n), upd (ix2 e f) := by
  have hidx : ∀ e : Fin 400000,
      broadcastInDim S400000x1 ![0] bcast_S400000_S400000x1_0 idx (ix2 e (0 : Fin 1)) = idx (ix1 e) := by
    intro e
    refine broadcastInDim_apply _ _ idx _ (ix1 e) ?_
    intro a
    match a with
    | ⟨0, _⟩ => rfl
  rw [scatterAdd_apply, broadcastInDim_scalar_apply, constant_apply, Ideal.ofBits_zero_f32, zero_add,
    scatter_eq_rowDims, sum_landing_rows]
  refine Finset.sum_congr (Finset.filter_congr fun e _ => ?_) fun e _ => rfl
  rw [hidx]
  exact land_iff_lands (idx (ix1 e)) f n

/-! ## The last stretch -/

/-- The score, weighted-value and spread-weight arrays and the destination words, as the last stretch finds them. -/
abbrev scoreArr (c : Dev nD) : S400000x128.Idx → EReal := W4 m c (Proc.devRef .tc main_v26_0)
abbrev wvalArr (c : Dev nD) : S400000x128.Idx → EReal := W4 m c (Proc.devRef .tc main_v26_1)
abbrev spreadArr (c : Dev nD) : S400000x128.Idx → EReal := W4 m c (Proc.devRef .tc main_v26_2)
abbrev dstArr (c : Dev nD) : S400000.Idx → BitVec 32 := W4 m c (Proc.devRef .tc main_arg7)

theorem scoreArr_eq (c : Dev nD) : scoreArr m c = scoreOut (V3 m) c := W4_arr m c 7
theorem wvalArr_eq (c : Dev nD) : wvalArr m c = wvalOut (V3 m) c := W4_arr m c 8
theorem spreadArr_eq (c : Dev nD) : spreadArr m c = spreadOut (V3 m) c := W4_arr m c 9

/-- The destination words reach the last stretch as launched. -/
theorem dstArr_eq (c : Dev nD) : dstArr m c = argDst m c :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-- The second result: the score array laid out by head. -/
theorem resE_eq (c : Dev nD) :
    resE m c = shapeCast S400000x8x16 (scoreArr m c) shapeCasts_S400000x128_S400000x8x16 := by
  show StableHlo.after hostOps2 (W4 m c) (Proc.devRef .tc main_v37) = _
  after_results
  rfl

/-- The first result: the weighted-value rows added by destination, over the spread-weight rows added by
    destination plus ε, laid out by head. -/
theorem resH_eq (c : Dev nD) :
    resH m c = shapeCast S50000x8x16
      (Host.divf (F := Ideal)
        (Host.scatterAdd (F := Ideal) scatter_S50000x128_S400000x1_S400000x128_1_0_0_1
          (broadcastInDim S50000x128 ![] bcast_S_S50000x128 (constant (F := Ideal) S_ .f32 0x00000000#32))
          (broadcastInDim S400000x1 ![0] bcast_S400000_S400000x1_0 (dstArr m c)) (wvalArr m c))
        (addf
          (Host.scatterAdd (F := Ideal) scatter_S50000x128_S400000x1_S400000x128_1_0_0_1
            (broadcastInDim S50000x128 ![] bcast_S_S50000x128 (constant (F := Ideal) S_ .f32 0x00000000#32))
            (broadcastInDim S400000x1 ![0] bcast_S400000_S400000x1_0 (dstArr m c)) (spreadArr m c))
          (broadcastInDim S50000x128 ![] bcast_S_S50000x128 (constant (F := Ideal) S_ .f32 0x358637BD#32))))
      shapeCasts_S50000x128_S50000x8x16 := by
  show StableHlo.after hostOps2 (W4 m c) (Proc.devRef .tc main_v36) = _
  after_results
  rfl

theorem ker_eOut (c : Dev nD) (e : Fin 400000) (h : Fin 8) (d : Fin 16) :
    resE m c (ix3 e h d) = Cert.Spec.eOut (aX m c) (aEF m c) (aWq m c) (aWk m c) (aWe m c) (aSrc m c) (aDst m c) e h d := by
  rw [resE_eq, byHead_apply, scoreArr_eq, score_spec]
  rfl

theorem ker_hOut (c : Dev nD) (n : Fin 50000) (h : Fin 8) (d : Fin 16) :
    resH m c (ix3 n h d) = Cert.Spec.hOut (aX m c) (aEF m c) (aWq m c) (aWk m c) (aWv m c) (aWe m c) (aSrc m c) (aDst m c) n h d := by
  rw [resH_eq, byHead_apply, hostDivf_apply, addf_apply, rowsAdded_apply, rowsAdded_apply,
    broadcastInDim_scalar_apply, constant_apply, wvalArr_eq, spreadArr_eq, dstArr_eq]
  unfold Cert.Spec.hOut Cert.Spec.wV Cert.Spec.zN aDst
  refine congrArg₂ Ideal.div ?_ (congrArg (fun t : EReal => t + Ideal.ofBits .f32 0x358637BD#32) ?_)
  · refine Finset.sum_congr rfl fun e _ => ?_
    exact wval_spec m c e (Cert.Spec.headIx h d)
  · refine Finset.sum_congr rfl fun e _ => ?_
    rw [spread_spec, headOf_headIx]
    rfl

end Cert.KernelIdeal.Hand

end
-- ==== Proof.LibRowGather3.lean ====
/-
  Rows of blocks of a table taken by a column of row numbers, read at coordinates.

  `table[idx]` for a table of `N` rows, each an `A × B` block, and a vector of `R` row numbers is a gather with
  the numbers laid out as an `R × 1` column: offset axes `1, 2`, collapsed axis `0`, start index map `[0]`, index
  vector axis `1`, slices of `1 × A × B`. Entry `(e, a, b)` of the result is the table at row `idx[e, 0]` — read as
  a signed integer and clamped into `[0, N − 1]`, as every start index of a gather is — and at place `(a, b)` of
  that row's block.
-/
import Idealize.ShloMosaic.Lib.ValueIdx

noncomputable section

namespace Idealize.ShloMosaic.RowGather3

open Idealize.ShloMosaic Idealize.ShloMosaic.ValueIdx

variable {α : Type}

/-- Those dimension numbers for a table `[N, A, B]`, row numbers `[R, 1]` and a result `[R, A, B]`; their
    conditions `wf` are decided on a program's literal shapes. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE ROW GATHER OF BLOCKS READ AT `(e, a, b)`: the table at the row number `idx[e, 0]`, read signed and clamped
    into `[0, N − 1]`, and at place `(a, b)` of the block. -/
theorem gather_rows3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (e : Fin R) (a : Fin A) (b : Fin B) :
    Host.gather (rowDims3 N A B R wf) x idx (ix3 e a b)
      = x (ix3 ⟨min (idx (ix2 e (0 : Fin 1))).toInt.toNat (N - 1), by omega⟩ a b) := by
  unfold Host.gather
  congr 1
  funext c
  refine Fin.ext ?_
  match c with
  | ⟨0, _⟩ =>
    -- the row axis: collapsed, so no offset; its start is the clamped row number
    show (rowDims3 N A B R wf).start (ix3 e a b) idx 0 + (rowDims3 N A B R wf).batchCoord (ix3 e a b) 0
      + (rowDims3 N A B R wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N A B R wf).startIndexMap from List.mem_singleton.mpr rfl)]
    have hsi : (rowDims3 N A B R wf).siIdx (ix3 e a b) ⟨List.idxOf (0 : Fin 3) (rowDims3 N A B R wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    -- the first block axis: not in the start index map, so it starts at 0 and carries the offset `a`
    show (rowDims3 N A B R wf).start (ix3 e a b) idx 1 + (rowDims3 N A B R wf).batchCoord (ix3 e a b) 1
      + (rowDims3 N A B R wf).offCoord (ix3 e a b) 1 = a.val
    rw [GatherDims.batchCoord_eq_zero _ _ _ List.not_mem_nil]
    unfold GatherDims.start
    rw [dif_neg (fun h : (1 : Fin 3) ∈ (rowDims3 N A B R wf).startIndexMap =>
      Nat.one_ne_zero (Fin.val_eq_of_eq (List.mem_singleton.mp h)))]
    simp only [Nat.add_zero, Nat.zero_add]
    rfl
  | ⟨2, _⟩ =>
    -- the second block axis: likewise, with the offset `b`
    show (rowDims3 N A B R wf).start (ix3 e a b) idx 2 + (rowDims3 N A B R wf).batchCoord (ix3 e a b) 2
      + (rowDims3 N A B R wf).offCoord (ix3 e a b) 2 = b.val
    rw [GatherDims.batchCoord_eq_zero _ _ _ List.not_mem_nil]
    unfold GatherDims.start
    rw [dif_neg (fun h : (2 : Fin 3) ∈ (rowDims3 N A B R wf).startIndexMap =>
      (by decide : (2 : Nat) ≠ 0) (Fin.val_eq_of_eq (List.mem_singleton.mp h)))]
    simp only [Nat.add_zero, Nat.zero_add]
    rfl

end Idealize.ShloMosaic.RowGather3

end
-- ==== Proof.RefStages.lean ====
/-
  The reference's per-edge stages are the specification's. It projects the node features three times and the edge
  features once, lays each product out by head (column 16·h + d becomes head h, place d), gathers whole rows of
  heads at wrapped, clamped node numbers, divides the key–query product by the square root of 16, which is 4, so by
  a quarter; clips, gates by the edge projection (the score, its second result); sums each head's sixteen places,
  clips, exponentiates (the attention weight); and multiplies the gathered value rows by it.
-/
import proofs.«101658_j14508399526689_1_alg».proof.Proof.Gen.ReferenceIdeal.Read
import proofs.«101658_j14508399526689_1_alg».proof.Proof.Spec
import proofs.«101658_j14508399526689_1_alg».proof.Proof.LibIndexWrap
import proofs.«101658_j14508399526689_1_alg».proof.Proof.LibRowGather3
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefSpec

open Cert.ReferenceIdeal Cert.ReferenceIdeal.Gen Cert.ReferenceIdeal.Read
open Idealize.ShloMosaic Idealize.ShloMosaic.TcCoe Idealize.ShloMosaic.ValueIdx

variable (x0 : S50000x128.Idx → EReal) (x1 : S400000x128.Idx → EReal) (x2 x3 x4 x5 : S128x128.Idx → EReal)
  (x6 x7 : S400000.Idx → BitVec 32)

/-! ### The constants -/

/-- The pattern of `16.0` denotes the real 16. -/
theorem ofBits_sixteen : Ideal.ofBits .f32 0x41800000#32 = ((16 : ℝ) : EReal) := by
  simp [Ideal.ofBits, Ideal.ieee, -EReal.coe_mul]; norm_num

/-- The pattern of `0.25` denotes the real ¼. -/
theorem ofBits_quarter : Ideal.ofBits .f32 0x3E800000#32 = ((1 / 4 : ℝ) : EReal) := by
  simp [Ideal.ofBits, Ideal.ieee, -EReal.coe_mul]; norm_num

/-- The square root of 16 is 4. -/
theorem sqrt_sixteen : Ideal.sqrt ((16 : ℝ) : EReal) = ((4 : ℝ) : EReal) := by
  show (if (16 : ℝ) < 0 then ⊥ else ((Real.sqrt 16 : ℝ) : EReal)) = _
  rw [if_neg (by norm_num)]
  have h4 : Real.sqrt 16 = 4 := by
    rw [show (16 : ℝ) = 4 ^ 2 by norm_num]
    exact Real.sqrt_sq (by norm_num)
  rw [h4]

/-- Dividing by the square root of 16 is multiplying by a quarter, for every extended real. -/
theorem div_sqrt_sixteen (x : EReal) :
    Ideal.div x (Ideal.sqrt (Ideal.ofBits .f32 0x41800000#32)) = x * Ideal.ofBits .f32 0x3E800000#32 := by
  rw [ofBits_sixteen, sqrt_sixteen, ofBits_quarter, Ideal.div_coe (by norm_num : (4 : ℝ) ≠ 0)]

/-! ### Columns by head -/

/-- Column `16·h + d` lies in head `h`. -/
theorem headOf_headIx (h : Fin 8) (d : Fin 16) : Cert.Spec.headOf (Cert.Spec.headIx h d) = h := by
  refine Fin.ext ?_
  show (16 * h.val + d.val) / 16 = h.val
  have := d.isLt
  omega

/-! ### The four projections, laid out by head -/

/-- The query projection at node `n`, head `h`, place `d`. -/
theorem proj_query (n : Fin 50000) (h : Fin 8) (d : Fin 16) :
    (val_main_v1 (F := Ideal) x0 x2 : S50000x8x16.Idx → EReal) (ix3 n h d)
      = Cert.Spec.proj (fun n k => x0 (ix2 n k)) (fun k f => x2 (ix2 k f)) n (Cert.Spec.headIx h d) := by
  rw [val_main_v1_apply, val_main_v0_apply]
  unfold Cert.Spec.proj
  refine Finset.sum_congr rfl fun k _ => ?_
  have hn := n.isLt; have hh := h.isLt; have hd := d.isLt
  have el : lidx_main_v0 (idx_main_v1 (ix3 n h d)) k = ix2 n k := funext fun a => Fin.ext (by
    match a with
    | ⟨0, _⟩ => show ((n.val * 8 + h.val) * 16 + d.val) / 128 = n.val; omega
    | ⟨1, _⟩ => rfl)
  have er : ridx_main_v0 (idx_main_v1 (ix3 n h d)) k = ix2 k (Cert.Spec.headIx h d) := funext fun a => Fin.ext (by
    match a with
    | ⟨0, _⟩ => rfl
    | ⟨1, _⟩ => show ((n.val * 8 + h.val) * 16 + d.val) % 128 = 16 * h.val + d.val; omega)
  rw [el, er]

/-- The key projection at node `n`, head `h`, place `d`. -/
theorem proj_key (n : Fin 50000) (h : Fin 8) (d : Fin 16) :
    (val_main_v3 (F := Ideal) x0 x3 : S50000x8x16.Idx → EReal) (ix3 n h d)
      = Cert.Spec.proj (fun n k => x0 (ix2 n k)) (fun k f => x3 (ix2 k f)) n (Cert.Spec.headIx h d) := by
  rw [val_main_v3_apply, val_main_v2_apply]
  unfold Cert.Spec.proj
  refine Finset.sum_congr rfl fun k _ => ?_
  have hn := n.isLt; have hh := h.isLt; have hd := d.isLt
  have el : lidx_main_v2 (idx_main_v3 (ix3 n h d)) k = ix2 n k := funext fun a => Fin.ext (by
    match a with
    | ⟨0, _⟩ => show ((n.val * 8 + h.val) * 16 + d.val) / 128 = n.val; omega
    | ⟨1, _⟩ => rfl)
  have er : ridx_main_v2 (idx_main_v3 (ix3 n h d)) k = ix2 k (Cert.Spec.headIx h d) := funext fun a => Fin.ext (by
    match a with
    | ⟨0, _⟩ => rfl
    | ⟨1, _⟩ => show ((n.val * 8 + h.val) * 16 + d.val) % 128 = 16 * h.val + d.val; omega)
  rw [el, er]

/-- The value projection at node `n`, head `h`, place `d`. -/
theorem proj_value (n : Fin 50000) (h : Fin 8) (d : Fin 16) :
    (val_main_v5 (F := Ideal) x0 x4 : S50000x8x16.Idx → EReal) (ix3 n h d)
      = Cert.Spec.proj (fun n k => x0 (ix2 n k)) (fun k f => x4 (ix2 k f)) n (Cert.Spec.headIx h d) := by
  rw [val_main_v5_apply, val_main_v4_apply]
  unfold Cert.Spec.proj
  refine Finset.sum_congr rfl fun k _ => ?_
  have hn := n.isLt; have hh := h.isLt; have hd := d.isLt
  have el : lidx_main_v4 (idx_main_v5 (ix3 n h d)) k = ix2 n k := funext fun a => Fin.ext (by
    match a with
    | ⟨0, _⟩ => show ((n.val * 8 + h.val) * 16 + d.val) / 128 = n.val; omega
    | ⟨1, _⟩ => rfl)
  have er : ridx_main_v4 (idx_main_v5 (ix3 n h d)) k = ix2 k (Cert.Spec.headIx h d) := funext fun a => Fin.ext (by
    match a with
    | ⟨0, _⟩ => rfl
    | ⟨1, _⟩ => show ((n.val * 8 + h.val) * 16 + d.val) % 128 = 16 * h.val + d.val; omega)
  rw [el, er]

/-- The edge projection at edge `e`, head `h`, place `d`. -/
theorem proj_edge (e : Fin 400000) (h : Fin 8) (d : Fin 16) :
    (val_main_v7 (F := Ideal) x1 x5 : S400000x8x16.Idx → EReal) (ix3 e h d)
      = Cert.Spec.proj (fun e k => x1 (ix2 e k)) (fun k f => x5 (ix2 k f)) e (Cert.Spec.headIx h d) := by
  rw [val_main_v7_apply, val_main_v6_apply]
  unfold Cert.Spec.proj
  refine Finset.sum_congr rfl fun k _ => ?_
  have he := e.isLt; have hh := h.isLt; have hd := d.isLt
  have el : lidx_main_v6 (idx_main_v7 (ix3 e h d)) k = ix2 e k := funext fun a => Fin.ext (by
    match a with
    | ⟨0, _⟩ => show ((e.val * 8 + h.val) * 16 + d.val) / 128 = e.val; omega
    | ⟨1, _⟩ => rfl)
  have er : ridx_main_v6 (idx_main_v7 (ix3 e h d)) k = ix2 k (Cert.Spec.headIx h d) := funext fun a => Fin.ext (by
    match a with
    | ⟨0, _⟩ => rfl
    | ⟨1, _⟩ => show ((e.val * 8 + h.val) * 16 + d.val) % 128 = 16 * h.val + d.val; omega)
  rw [el, er]

/-! ### The wrapped node numbers, as columns -/

/-- The source column for the key gather holds, at edge `e`, the source number wrapped by 50000. -/
theorem wrapped_src_keys (e : Fin 400000) :
    val_main_v13 (F := Ideal) x6 (ix2 e (0 : Fin 1)) = IndexWrap.wrap 50000#32 (x6 (ix1 e)) := by
  rw [val_main_v13_apply, val_main_v12_apply, val_main_v9_apply, val_main_v11_apply, val_main_v8_apply,
    val_main_v10_apply, val_main_c_apply, val_main_c_0_apply]
  have hi : idx_main_v13 (ix2 e (0 : Fin 1)) = ix1 e := funext fun a => Fin.ext (by match a with | ⟨0, _⟩ => rfl)
  rw [hi]
  rfl

/-- The destination column for the query gather holds, at edge `e`, the destination number wrapped by 50000. -/
theorem wrapped_dst_queries (e : Fin 400000) :
    val_main_v20 (F := Ideal) x7 (ix2 e (0 : Fin 1)) = IndexWrap.wrap 50000#32 (x7 (ix1 e)) := by
  rw [val_main_v20_apply, val_main_v19_apply, val_main_v16_apply, val_main_v18_apply, val_main_v15_apply,
    val_main_v17_apply, val_main_c_1_apply, val_main_c_2_apply]
  have hi : idx_main_v20 (ix2 e (0 : Fin 1)) = ix1 e := funext fun a => Fin.ext (by match a with | ⟨0, _⟩ => rfl)
  rw [hi]
  rfl

/-- The source column for the value gather holds, at edge `e`, the source number wrapped by 50000. -/
theorem wrapped_src_values (e : Fin 400000) :
    val_main_v37 (F := Ideal) x6 (ix2 e (0 : Fin 1)) = IndexWrap.wrap 50000#32 (x6 (ix1 e)) := by
  rw [val_main_v37_apply, val_main_v36_apply, val_main_v33_apply, val_main_v35_apply, val_main_v32_apply,
    val_main_v34_apply, val_main_c_8_apply, val_main_c_9_apply]
  have hi : idx_main_v37 (ix2 e (0 : Fin 1)) = ix1 e := funext fun a => Fin.ext (by match a with | ⟨0, _⟩ => rfl)
  rw [hi]
  rfl

/-! ### The three gathers -/

/-- The key rows taken at the source node. -/
theorem keys_at_src (e : Fin 400000) (h : Fin 8) (d : Fin 16) :
    (val_main_v14 (F := Ideal) x0 x3 x6 : S400000x8x16.Idx → EReal) (ix3 e h d)
      = Cert.Spec.proj (fun n k => x0 (ix2 n k)) (fun k f => x3 (ix2 k f)) (Cert.Spec.gRow (x6 (ix1 e)))
          (Cert.Spec.headIx h d) := by
  unfold val_main_v14
  refine (RowGather3.gather_rows3_apply (N := 50000) (A := 8) (B := 16) (R := 400000) (by decide)
    gather_S50000x8x16_S400000x1_S400000x8x16_12_0_n_n_0_1_1816_wf _ _ e h d).trans ?_
  simp only [wrapped_src_keys]
  exact proj_key x0 x3 _ h d

/-- The query rows taken at the destination node. -/
theorem queries_at_dst (e : Fin 400000) (h : Fin 8) (d : Fin 16) :
    (val_main_v21 (F := Ideal) x0 x2 x7 : S400000x8x16.Idx → EReal) (ix3 e h d)
      = Cert.Spec.proj (fun n k => x0 (ix2 n k)) (fun k f => x2 (ix2 k f)) (Cert.Spec.gRow (x7 (ix1 e)))
          (Cert.Spec.headIx h d) := by
  unfold val_main_v21
  refine (RowGather3.gather_rows3_apply (N := 50000) (A := 8) (B := 16) (R := 400000) (by decide)
    gather_S50000x8x16_S400000x1_S400000x8x16_12_0_n_n_0_1_1816_wf _ _ e h d).trans ?_
  simp only [wrapped_dst_queries]
  exact proj_query x0 x2 _ h d

/-- The value rows taken at the source node. -/
theorem values_at_src (e : Fin 400000) (h : Fin 8) (d : Fin 16) :
    (val_main_v38 (F := Ideal) x0 x4 x6 : S400000x8x16.Idx → EReal) (ix3 e h d)
      = Cert.Spec.proj (fun n k => x0 (ix2 n k)) (fun k f => x4 (ix2 k f)) (Cert.Spec.gRow (x6 (ix1 e)))
          (Cert.Spec.headIx h d) := by
  unfold val_main_v38
  refine (RowGather3.gather_rows3_apply (N := 50000) (A := 8) (B := 16) (R := 400000) (by decide)
    gather_S50000x8x16_S400000x1_S400000x8x16_12_0_n_n_0_1_1816_wf _ _ e h d).trans ?_
  simp only [wrapped_src_values]
  exact proj_value x0 x4 _ h d

/-! ### The stages -/

/-- The score stage, which is also the second result. -/
theorem ref_eOut (e : Fin 400000) (h : Fin 8) (d : Fin 16) :
    (val_main_v27 (F := Ideal) x0 x1 x2 x3 x5 x6 x7 : S400000x8x16.Idx → EReal) (ix3 e h d)
      = Cert.Spec.eOut (fun n k => x0 (ix2 n k)) (fun e k => x1 (ix2 e k)) (fun k f => x2 (ix2 k f)) (fun k f => x3 (ix2 k f))
          (fun k f => x5 (ix2 k f)) (fun e => x6 (ix1 e)) (fun e => x7 (ix1 e)) e h d := by
  rw [val_main_v27_apply, val_main_v26_apply, val_main_call0_v4_apply, val_main_call0_v3_apply, val_main_cst_4_apply,
    val_main_call0_v2_apply, val_main_call0_v1_apply, val_main_call0_v0_apply, val_main_cst_3_apply,
    val_main_v25_apply, val_main_v24_apply, val_main_v23_apply, val_main_cst_apply, val_main_v22_apply,
    keys_at_src, queries_at_dst, proj_edge]
  simp only [Ideal.mulf_def, Ideal.minimumf_def, Ideal.maximumf_def, Ideal.hostDivf_def, Ideal.hostUnary_sqrt_def,
    Ideal.ofBits_def]
  rw [div_sqrt_sixteen]
  rfl

/-- The attention weight stage, one per edge and head. -/
theorem ref_attn (e : Fin 400000) (h : Fin 8) :
    (val_main_v31 (F := Ideal) x0 x1 x2 x3 x5 x6 x7 : S400000x8x1.Idx → EReal) (ix3 e h (0 : Fin 1))
      = Cert.Spec.attn (fun n k => x0 (ix2 n k)) (fun e k => x1 (ix2 e k)) (fun k f => x2 (ix2 k f)) (fun k f => x3 (ix2 k f))
          (fun k f => x5 (ix2 k f)) (fun e => x6 (ix1 e)) (fun e => x7 (ix1 e)) e h := by
  rw [val_main_v31_apply, val_main_v30_apply, val_main_call1_v4_apply, val_main_call1_v3_apply, val_main_cst_7_apply,
    val_main_call1_v2_apply, val_main_call1_v1_apply, val_main_call1_v0_apply, val_main_cst_6_apply,
    val_main_v29_apply, val_main_v28_apply, val_main_cst_5_apply]
  have hk : ∀ k : Fin 16, idx_main_v28 (idx_main_v29 (ix3 e h (0 : Fin 1))) k = ix3 e h k := fun k =>
    funext fun a => Fin.ext (by match a with | ⟨0, _⟩ => rfl | ⟨1, _⟩ => rfl | ⟨2, _⟩ => rfl)
  simp only [hk, ref_eOut]
  simp only [Ideal.minimumf_def, Ideal.maximumf_def, Ideal.hostUnary_exp_def, Ideal.ofBits_def,
    Ideal.ofBits_zero_f32, zero_add]
  rfl

/-- The weighted value stage. -/
theorem ref_wval (e : Fin 400000) (h : Fin 8) (d : Fin 16) :
    (val_main_v40 (F := Ideal) x0 x1 x2 x3 x4 x5 x6 x7 : S400000x8x16.Idx → EReal) (ix3 e h d)
      = Cert.Spec.contrib (fun n k => x0 (ix2 n k)) (fun e k => x1 (ix2 e k)) (fun k f => x2 (ix2 k f)) (fun k f => x3 (ix2 k f))
          (fun k f => x4 (ix2 k f)) (fun k f => x5 (ix2 k f)) (fun e => x6 (ix1 e)) (fun e => x7 (ix1 e)) e (Cert.Spec.headIx h d) := by
  rw [val_main_v40_apply, val_main_v39_apply, values_at_src]
  have hi : idx_main_v39 (ix3 e h d) = ix3 e h (0 : Fin 1) :=
    funext fun a => Fin.ext (by match a with | ⟨0, _⟩ => rfl | ⟨1, _⟩ => rfl | ⟨2, _⟩ => rfl)
  rw [hi, ref_attn]
  unfold Cert.Spec.contrib
  rw [headOf_headIx]
  rfl

end Cert.ReferenceIdeal.RefSpec

end
-- ==== Proof.LibScatterRows3.lean ====
/-
  Rows of heads added into a table at a column of row numbers, read at coordinates.

  `table.at[idx].add(upd)` for a table of `N` rows, each an `A × B` block, `R` row numbers laid out as an
  `R × 1` column and `R × A × B` updates is a scatter with update window axes `1, 2`, inserted window axis `0`,
  the start index going to operand axis `0`, the index vector on axis `1`. Update `(e, a, b)` lands on the
  table's entry `(idx[e, 0], a, b)` when the row number, read as a signed integer and NOT clamped, is a row of the
  table, and is dropped otherwise. On the extended reals the result at entry `(n, a, b)` is therefore the table's
  entry plus the sum, over the updates' rows `e` whose row number names `n`, of the update `(e, a, b)`.
-/
import Idealize.ShloMosaic.PureOps.Ideal
import Idealize.ShloMosaic.Lib.ValueIdx

noncomputable section

open scoped BigOperators

namespace Idealize.ShloMosaic.ScatterRows3

open Idealize.ShloMosaic Idealize.ShloMosaic.ValueIdx

/-- Those dimension numbers for a table `[N, A, B]`, row numbers `[R, 1]` and updates `[R, A, B]`; their
    conditions `wf` are decided on a program's literal shapes. -/
abbrev rowDims (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

/-- The row of the table a row number names: the word `t` read signed, if that is a row of the table; none
    otherwise. -/
def landRow (N : Nat) {w : Nat} (t : BitVec w) : Option (Fin N) :=
  if h : 0 ≤ t.toInt ∧ t.toInt < (N : Int) then some ⟨t.toInt.toNat, by omega⟩ else none

/-- THE LANDING PLACE of update `(e, a, b)`: place `(a, b)` of the row the row number `idx[e, 0]` names, when
    it names one. -/
theorem resultIdx_rows {N A B R w : Nat}
    (wf : ScatterDims.WF ⟨3, ![N, A, B]⟩ ⟨2, ![R, 1]⟩ ⟨3, ![R, A, B]⟩ [1, 2] [0] [0] 1)
    (idx : IVec ⟨2, ![R, 1]⟩ w) (e : Fin R) (a : Fin A) (b : Fin B) :
    (rowDims N A B R wf).resultIdx? (ix3 e a b) idx
      = (landRow N (idx (ix2 e (0 : Fin 1)))).map (fun n => ix3 n a b) := by
  have hs0 : (rowDims N A B R wf).start (ix3 e a b) idx 0 = (idx (ix2 e (0 : Fin 1))).toInt := by
    unfold ScatterDims.start
    rw [dif_pos (show (0 : Fin 3) ∈ (rowDims N A B R wf).scatterDimsToOperandDims from List.mem_singleton.mpr rfl)]
    have hsi : (rowDims N A B R wf).siIdx (ix3 e a b)
        ⟨List.idxOf (0 : Fin 3) (rowDims N A B R wf).scatterDimsToOperandDims,
          List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hs1 : (rowDims N A B R wf).start (ix3 e a b) idx 1 = 0 := by
    unfold ScatterDims.start
    rw [dif_neg (fun h : (1 : Fin 3) ∈ (rowDims N A B R wf).scatterDimsToOperandDims =>
      Nat.one_ne_zero (Fin.val_eq_of_eq (List.mem_singleton.mp h)))]
  have hs2 : (rowDims N A B R wf).start (ix3 e a b) idx 2 = 0 := by
    unfold ScatterDims.start
    rw [dif_neg (fun h : (2 : Fin 3) ∈ (rowDims N A B R wf).scatterDimsToOperandDims =>
      (by decide : (2 : Nat) ≠ 0) (Fin.val_eq_of_eq (List.mem_singleton.mp h)))]
  have hk0 : (0 : Fin 3) ∉ (rowDims N A B R wf).sKept := by
    show (0 : Fin 3) ∉ (List.finRange 3).filter (fun c => c ∉ [(0 : Fin 3)])
    decide
  have hk1 : (1 : Fin 3) ∈ (rowDims N A B R wf).sKept := by
    show (1 : Fin 3) ∈ (List.finRange 3).filter (fun c => c ∉ [(0 : Fin 3)])
    decide
  have hk2 : (2 : Fin 3) ∈ (rowDims N A B R wf).sKept := by
    show (2 : Fin 3) ∈ (List.finRange 3).filter (fun c => c ∉ [(0 : Fin 3)])
    decide
  have hw0 : (rowDims N A B R wf).window (ix3 e a b) 0 = 0 := by
    unfold ScatterDims.window
    rw [dif_neg hk0]
  have hw1 : (rowDims N A B R wf).window (ix3 e a b) 1 = a.val := by
    unfold ScatterDims.window
    rw [dif_pos hk1]
    rfl
  have hw2 : (rowDims N A B R wf).window (ix3 e a b) 2 = b.val := by
    unfold ScatterDims.window
    rw [dif_pos hk2]
    rfl
  have ha : a.val < A := a.isLt
  have hb : b.val < B := b.isLt
  unfold ScatterDims.resultIdx? landRow
  by_cases h : 0 ≤ (idx (ix2 e (0 : Fin 1))).toInt ∧ (idx (ix2 e (0 : Fin 1))).toInt < (N : Int)
  · have hall : ∀ c, 0 ≤ (rowDims N A B R wf).start (ix3 e a b) idx c + ((rowDims N A B R wf).window (ix3 e a b) c : Int)
        ∧ (rowDims N A B R wf).start (ix3 e a b) idx c + ((rowDims N A B R wf).window (ix3 e a b) c : Int)
          < ((⟨3, ![N, A, B]⟩ : Shape).size c : Int) := by
      intro c
      match c with
      | ⟨0, _⟩ =>
        show 0 ≤ (rowDims N A B R wf).start (ix3 e a b) idx 0 + ((rowDims N A B R wf).window (ix3 e a b) 0 : Int)
          ∧ (rowDims N A B R wf).start (ix3 e a b) idx 0 + ((rowDims N A B R wf).window (ix3 e a b) 0 : Int) < (N : Int)
        rw [hs0, hw0]; omega
      | ⟨1, _⟩ =>
        show 0 ≤ (rowDims N A B R wf).start (ix3 e a b) idx 1 + ((rowDims N A B R wf).window (ix3 e a b) 1 : Int)
          ∧ (rowDims N A B R wf).start (ix3 e a b) idx 1 + ((rowDims N A B R wf).window (ix3 e a b) 1 : Int) < (A : Int)
        rw [hs1, hw1]; omega
      | ⟨2, _⟩ =>
        show 0 ≤ (rowDims N A B R wf).start (ix3 e a b) idx 2 + ((rowDims N A B R wf).window (ix3 e a b) 2 : Int)
          ∧ (rowDims N A B R wf).start (ix3 e a b) idx 2 + ((rowDims N A B R wf).window (ix3 e a b) 2 : Int) < (B : Int)
        rw [hs2, hw2]; omega
    rw [dif_pos hall, dif_pos h]
    show some _ = some _
    congr 1
    funext c
    refine Fin.ext ?_
    match c with
    | ⟨0, _⟩ =>
      show ((rowDims N A B R wf).start (ix3 e a b) idx 0 + ((rowDims N A B R wf).window (ix3 e a b) 0 : Int)).toNat
        = (idx (ix2 e (0 : Fin 1))).toInt.toNat
      rw [hs0, hw0]; simp
    | ⟨1, _⟩ =>
      show ((rowDims N A B R wf).start (ix3 e a b) idx 1 + ((rowDims N A B R wf).window (ix3 e a b) 1 : Int)).toNat = a.val
      rw [hs1, hw1]; simp
    | ⟨2, _⟩ =>
      show ((rowDims N A B R wf).start (ix3 e a b) idx 2 + ((rowDims N A B R wf).window (ix3 e a b) 2 : Int)).toNat = b.val
      rw [hs2, hw2]; simp
  · rw [dif_neg (fun hall => h (by
      have h0 := hall 0
      have e0 : ((⟨3, ![N, A, B]⟩ : Shape).size 0 : Int) = (N : Int) := rfl
      rw [hs0, hw0, e0] at h0
      omega)), dif_neg h]
    rfl

/-- THE ENTRY: the table's entry `(n, a, b)` after the rows are added is that entry before plus the sum, over the
    updates' rows whose row number names `n`, of their entry `(a, b)`. -/
theorem scatterAdd_rows_apply {N A B R w : Nat}
    (wf : ScatterDims.WF ⟨3, ![N, A, B]⟩ ⟨2, ![R, 1]⟩ ⟨3, ![R, A, B]⟩ [1, 2] [0] [0] 1)
    (x : (⟨3, ![N, A, B]⟩ : Shape).Idx → EReal) (idx : IVec ⟨2, ![R, 1]⟩ w)
    (upd : (⟨3, ![R, A, B]⟩ : Shape).Idx → EReal) (n : Fin N) (a : Fin A) (b : Fin B) :
    Host.scatterAdd (F := Ideal) (φ := .f32) (rowDims N A B R wf) x idx upd (ix3 n a b)
      = x (ix3 n a b)
        + ∑ e ∈ Finset.univ.filter (fun e : Fin R => landRow N (idx (ix2 e (0 : Fin 1))) = some n),
            upd (ix3 e a b) := by
  show x (ix3 n a b) + _ = x (ix3 n a b) + _
  congr 1
  symm
  refine Finset.sum_bij (fun e _ => ix3 e a b) ?_ ?_ ?_ ?_
  · intro e he
    refine Finset.mem_filter.mpr ⟨Finset.mem_univ _, ?_⟩
    rw [resultIdx_rows, (Finset.mem_filter.mp he).2]
    rfl
  · intro e₁ _ e₂ _ h
    exact congrFun h 0
  · intro j hj
    obtain ⟨e, a', b', rfl⟩ : ∃ (e : Fin R) (a' : Fin A) (b' : Fin B), j = ix3 e a' b' :=
      ⟨j 0, j 1, j 2, eq_ix3 j⟩
    have hj2 := (Finset.mem_filter.mp hj).2
    rw [resultIdx_rows] at hj2
    cases hl : landRow N (idx (ix2 e (0 : Fin 1))) with
    | none =>
      rw [hl] at hj2
      exact absurd hj2 (by simp)
    | some m =>
      rw [hl] at hj2
      have hj3 : ix3 m a' b' = ix3 n a b := Option.some.inj hj2
      have hm : m = n := congrFun hj3 0
      have ha : a' = a := congrFun hj3 1
      have hb : b' = b := congrFun hj3 2
      subst hm ha hb
      exact ⟨e, Finset.mem_filter.mpr ⟨Finset.mem_univ _, hl⟩, rfl⟩
  · intro e _
    rfl

end Idealize.ShloMosaic.ScatterRows3

end
-- ==== Proof.RefSpec.lean ====
/-
  The reference's first result is the specification's h_out. The weighted values and the attention weights are
  added into node rows by destination node: an edge's row of heads lands on the node its number names, read signed
  and unclamped, and is dropped when that is no node; both tables start at zero. ε is added to the second table,
  spread over the sixteen places of each head, and the first table is divided by it entry by entry.
-/
import proofs.«101658_j14508399526689_1_alg».proof.Proof.RefStages
import proofs.«101658_j14508399526689_1_alg».proof.Proof.Spec
import proofs.«101658_j14508399526689_1_alg».proof.Proof.LibScatterRows3
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefSpec

open Cert.ReferenceIdeal Cert.ReferenceIdeal.Gen Cert.ReferenceIdeal.Read
open Idealize.ShloMosaic Idealize.ShloMosaic.TcCoe Idealize.ShloMosaic.ValueIdx

variable (x0 : S50000x128.Idx → EReal) (x1 : S400000x128.Idx → EReal) (x2 x3 x4 x5 : S128x128.Idx → EReal)
  (x6 x7 : S400000.Idx → BitVec 32)

/-- A row number names a row of the 50000-row table exactly when the specification says the word lands there. -/
theorem landRow_eq_lands (v : BitVec 32) : ScatterRows3.landRow 50000 v = Cert.Spec.lands v := rfl

/-- The column of destination numbers the weighted values are added at, read at a row: the edge's destination word. -/
theorem dstcol_wV (e : Fin 400000) :
    (val_main_v42 (F := Ideal) x7 : S400000x1.Idx → BitVec 32) (ix2 e (0 : Fin 1)) = x7 (ix1 e) := by
  refine (val_main_v42_apply (F := Ideal) x7 (ix2 e (0 : Fin 1))).trans ?_
  congr 1
  exact funext fun a => Fin.ext (by match a with | ⟨0, _⟩ => rfl)

/-- The column of destination numbers the attention weights are added at, read at a row: the same word. -/
theorem dstcol_zN (e : Fin 400000) :
    (val_main_v45 (F := Ideal) x7 : S400000x1.Idx → BitVec 32) (ix2 e (0 : Fin 1)) = x7 (ix1 e) := by
  refine (val_main_v45_apply (F := Ideal) x7 (ix2 e (0 : Fin 1))).trans ?_
  congr 1
  exact funext fun a => Fin.ext (by match a with | ⟨0, _⟩ => rfl)

/-- The table the weighted values are added into starts at zero. -/
theorem zeros_wV (i : S50000x8x16.Idx) : (val_main_v41 (F := Ideal) : S50000x8x16.Idx → EReal) i = 0 := by
  refine (val_main_v41_apply (F := Ideal) i).trans ?_
  exact Ideal.ofBits_zero_f32

/-- The table the attention weights are added into starts at zero. -/
theorem zeros_zN (i : S50000x8x1.Idx) : (val_main_v44 (F := Ideal) : S50000x8x1.Idx → EReal) i = 0 := by
  refine (val_main_v44_apply (F := Ideal) i).trans ?_
  exact Ideal.ofBits_zero_f32

/-- The first table: at node n, head h, place d, the sum of the weighted values of the edges landing on n. -/
theorem ref_wV (n : Fin 50000) (h : Fin 8) (d : Fin 16) :
    (val_main_v43 (F := Ideal) x0 x1 x2 x3 x4 x5 x6 x7 : S50000x8x16.Idx → EReal) (ix3 n h d)
      = Cert.Spec.wV (fun n k => x0 (ix2 n k)) (fun e k => x1 (ix2 e k)) (fun k f => x2 (ix2 k f)) (fun k f => x3 (ix2 k f))
          (fun k f => x4 (ix2 k f)) (fun k f => x5 (ix2 k f)) (fun e => x6 (ix1 e)) (fun e => x7 (ix1 e)) n (Cert.Spec.headIx h d) := by
  unfold val_main_v43
  refine (ScatterRows3.scatterAdd_rows_apply (N := 50000) (A := 8) (B := 16) (R := 400000)
    scatter_S50000x8x16_S400000x1_S400000x8x16_12_0_0_1_wf _ _ _ n h d).trans ?_
  rw [zeros_wV, zero_add]
  unfold Cert.Spec.wV
  refine Finset.sum_congr (Finset.filter_congr fun e _ => ?_) (fun e _ => ref_wval x0 x1 x2 x3 x4 x5 x6 x7 e h d)
  rw [dstcol_wV, landRow_eq_lands]

/-- The second table: at node n and head h, the sum of the attention weights of the edges landing on n. -/
theorem ref_zN (n : Fin 50000) (h : Fin 8) :
    (val_main_v46 (F := Ideal) x0 x1 x2 x3 x5 x6 x7 : S50000x8x1.Idx → EReal) (ix3 n h (0 : Fin 1))
      = Cert.Spec.zN (fun n k => x0 (ix2 n k)) (fun e k => x1 (ix2 e k)) (fun k f => x2 (ix2 k f)) (fun k f => x3 (ix2 k f))
          (fun k f => x5 (ix2 k f)) (fun e => x6 (ix1 e)) (fun e => x7 (ix1 e)) n h := by
  unfold val_main_v46
  refine (ScatterRows3.scatterAdd_rows_apply (N := 50000) (A := 8) (B := 1) (R := 400000)
    scatter_S50000x8x1_S400000x1_S400000x8x1_12_0_0_1_wf _ _ _ n h (0 : Fin 1)).trans ?_
  rw [zeros_zN, zero_add]
  unfold Cert.Spec.zN
  refine Finset.sum_congr (Finset.filter_congr fun e _ => ?_) (fun e _ => ref_attn x0 x1 x2 x3 x5 x6 x7 e h)
  rw [dstcol_zN, landRow_eq_lands]

theorem ref_hOut (n : Fin 50000) (h : Fin 8) (d : Fin 16) :
    (val_main_v50 (F := Ideal) x0 x1 x2 x3 x4 x5 x6 x7 : S50000x8x16.Idx → EReal) (ix3 n h d)
      = Cert.Spec.hOut (fun n k => x0 (ix2 n k)) (fun e k => x1 (ix2 e k)) (fun k f => x2 (ix2 k f)) (fun k f => x3 (ix2 k f))
          (fun k f => x4 (ix2 k f)) (fun k f => x5 (ix2 k f)) (fun e => x6 (ix1 e)) (fun e => x7 (ix1 e)) n h d := by
  refine (val_main_v50_apply (F := Ideal) x0 x1 x2 x3 x4 x5 x6 x7 (ix3 n h d)).trans ?_
  have hden : (val_main_v49 (F := Ideal) x0 x1 x2 x3 x5 x6 x7 : S50000x8x16.Idx → EReal) (ix3 n h d)
      = Cert.Spec.zN (fun n k => x0 (ix2 n k)) (fun e k => x1 (ix2 e k)) (fun k f => x2 (ix2 k f)) (fun k f => x3 (ix2 k f))
          (fun k f => x5 (ix2 k f)) (fun e => x6 (ix1 e)) (fun e => x7 (ix1 e)) n h + Ideal.ofBits .f32 0x358637BD#32 := by
    refine (val_main_v49_apply (F := Ideal) x0 x1 x2 x3 x5 x6 x7 (ix3 n h d)).trans ?_
    have hi : idx_main_v49 (ix3 n h d) = ix3 n h (0 : Fin 1) :=
      funext fun a => Fin.ext (by match a with | ⟨0, _⟩ => rfl | ⟨1, _⟩ => rfl | ⟨2, _⟩ => rfl)
    rw [hi]
    refine (val_main_v48_apply (F := Ideal) x0 x1 x2 x3 x5 x6 x7 (ix3 n h (0 : Fin 1))).trans ?_
    show (val_main_v46 (F := Ideal) x0 x1 x2 x3 x5 x6 x7 : S50000x8x1.Idx → EReal) (ix3 n h (0 : Fin 1))
      + (val_main_v47 (F := Ideal) : S50000x8x1.Idx → EReal) (ix3 n h (0 : Fin 1)) = _
    rw [ref_zN]
    congr 1
  show Ideal.div _ _ = Ideal.div _ _
  rw [ref_wV, hden]

end Cert.ReferenceIdeal.RefSpec

end
-- ==== Proof.lean ====
/-
  The certificate: a graph-attention edge update, a Pallas program of two kernel regions among host operations
  against its plain reference, equal over the extended reals.

  Both programs compute, from node features X, edge features EF, four weight matrices and two lists of node
  numbers src and dst,
      score(e, ·)  = clip(K[src e] ⊙ Q[dst e] · ¼) ⊙ (EF · We)(e)                    (the second result)
      attn(e, h)   = exp (clip (the sum of score(e, ·) over head h's sixteen columns))
      h_out(n,h,·) = (Σ_{e ↦ n} V[src e] ⊙ attn(e, h)) / (Σ_{e ↦ n} attn(e, h) + ε)   (the first result)
  with Q, K, V = X·Wq, X·Wk, X·Wv. The kernel program multiplies X by the three weight matrices joined side by
  side in one region, cuts the product apart, gathers rows, and computes score, the per-head sums (a product with a
  0/1 head-indicator matrix), attn spread back over the columns (a product with the transposed indicator) and the
  weighted values in a second region, then adds rows into node rows and divides on the host. The reference does
  the same on arrays laid out by head and divides by √16 where the kernel multiplies by ¼. Over the extended reals
  the two agree entry by entry: a sum against an indicator keeps one head's terms (x·1 = x and x·0 = 0 for every
  extended real x), dividing by 4 is multiplying by ¼ for every extended real, and the sums into node rows run over
  the same edges. No law used needs the inputs finite.

  The frames: each kernel region's body loads its blocks, computes and stores whole blocks; the launch runs the five
  segments in order; no host operation and no region writes an argument.
-/
import proofs.«101658_j14508399526689_1_alg».proof.Defs
import proofs.«101658_j14508399526689_1_alg».proof.Proof.Gen.Kernel
import proofs.«101658_j14508399526689_1_alg».proof.Proof.Gen.KernelIdeal
import proofs.«101658_j14508399526689_1_alg».proof.Proof.Gen.ReferenceIdeal
import proofs.«101658_j14508399526689_1_alg».proof.Proof.Gen.Pre_finite_inputs
import proofs.«101658_j14508399526689_1_alg».proof.Proof.Gen.ReferenceIdeal.Run
import proofs.«101658_j14508399526689_1_alg».proof.Proof.Gen.ReferenceIdeal.Read
import proofs.«101658_j14508399526689_1_alg».proof.Proof.K.Run
import proofs.«101658_j14508399526689_1_alg».proof.Proof.KI.Run
import proofs.«101658_j14508399526689_1_alg».proof.Proof.KI.Args
import proofs.«101658_j14508399526689_1_alg».proof.Proof.KI.Value
import proofs.«101658_j14508399526689_1_alg».proof.Proof.RefStages
import proofs.«101658_j14508399526689_1_alg».proof.Proof.RefSpec
import Idealize.ShloMosaic.Lib.ValueIdx

noncomputable section

namespace Cert.Proof

open Idealize.ShloMosaic Idealize.ShloMosaic.TcCoe Idealize.ShloMosaic.ValueIdx Idealize.SL.Sem

/-- The word-level program runs to the end without a fault and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The reference's first result, at arguments agreeing with the kernel's, is the kernel's first result: both are the
    specification's h_out, entry by entry. -/
theorem first_result (m : (ℓ : Loc Cert.KernelIdeal.nD Cert.KernelIdeal.τ Cert.KernelIdeal.sig) → Buf (Elt Ideal) ℓ)
    (c : Dev Cert.KernelIdeal.nD)
    (x0 : Cert.ReferenceIdeal.S50000x128.Idx → EReal) (x1 : Cert.ReferenceIdeal.S400000x128.Idx → EReal)
    (x2 x3 x4 x5 : Cert.ReferenceIdeal.S128x128.Idx → EReal) (x6 x7 : Cert.ReferenceIdeal.S400000.Idx → BitVec 32)
    (h0 : x0 = Cert.KernelIdeal.Hand.argNode m c) (h1 : x1 = Cert.KernelIdeal.Hand.argEdge m c)
    (h2 : x2 = Cert.KernelIdeal.Hand.argWq m c) (h3 : x3 = Cert.KernelIdeal.Hand.argWk m c)
    (h4 : x4 = Cert.KernelIdeal.Hand.argWv m c) (h5 : x5 = Cert.KernelIdeal.Hand.argWe m c)
    (h6 : x6 = Cert.KernelIdeal.Hand.argSrc m c) (h7 : x7 = Cert.KernelIdeal.Hand.argDst m c) :
    (Cert.ReferenceIdeal.Read.val_main_v50 (F := Ideal) x0 x1 x2 x3 x4 x5 x6 x7 : Cert.ReferenceIdeal.S50000x8x16.Idx → EReal)
      = Cert.KernelIdeal.Hand.resH m c := by
  subst h0 h1 h2 h3 h4 h5 h6 h7
  funext i
  obtain ⟨n, h, d, rfl⟩ : ∃ (n : Fin 50000) (h : Fin 8) (d : Fin 16), i = ix3 n h d := ⟨i 0, i 1, i 2, eq_ix3 i⟩
  rw [Cert.ReferenceIdeal.RefSpec.ref_hOut, Cert.KernelIdeal.Hand.ker_hOut]
  rfl

/-- The same for the second result: both are the specification's e_out. -/
theorem second_result (m : (ℓ : Loc Cert.KernelIdeal.nD Cert.KernelIdeal.τ Cert.KernelIdeal.sig) → Buf (Elt Ideal) ℓ)
    (c : Dev Cert.KernelIdeal.nD)
    (x0 : Cert.ReferenceIdeal.S50000x128.Idx → EReal) (x1 : Cert.ReferenceIdeal.S400000x128.Idx → EReal)
    (x2 x3 x5 : Cert.ReferenceIdeal.S128x128.Idx → EReal) (x6 x7 : Cert.ReferenceIdeal.S400000.Idx → BitVec 32)
    (h0 : x0 = Cert.KernelIdeal.Hand.argNode m c) (h1 : x1 = Cert.KernelIdeal.Hand.argEdge m c)
    (h2 : x2 = Cert.KernelIdeal.Hand.argWq m c) (h3 : x3 = Cert.KernelIdeal.Hand.argWk m c)
    (h5 : x5 = Cert.KernelIdeal.Hand.argWe m c)
    (h6 : x6 = Cert.KernelIdeal.Hand.argSrc m c) (h7 : x7 = Cert.KernelIdeal.Hand.argDst m c) :
    (Cert.ReferenceIdeal.Read.val_main_v27 (F := Ideal) x0 x1 x2 x3 x5 x6 x7 : Cert.ReferenceIdeal.S400000x8x16.Idx → EReal)
      = Cert.KernelIdeal.Hand.resE m c := by
  subst h0 h1 h2 h3 h5 h6 h7
  funext i
  obtain ⟨e, h, d, rfl⟩ : ∃ (e : Fin 400000) (h : Fin 8) (d : Fin 16), i = ix3 e h d := ⟨i 0, i 1, i 2, eq_ix3 i⟩
  rw [Cert.ReferenceIdeal.RefSpec.ref_eOut, Cert.KernelIdeal.Hand.ker_eOut]
  rfl

/-- At the ideal instance, from memories agreeing on the arguments, both programs run and end with equal results:
    the kernel's two result arrays after its run, which the reference's two results equal entry by entry. -/
theorem algebraic : Cert.algebraic_KernelIdeal_ReferenceIdeal := by
  intro m ρ m' ρ' _ hagree
  refine ⟨fun c => Cert.KernelIdeal.Hand.resH m c, fun c => Cert.KernelIdeal.Hand.resE m c, ?_, ?_⟩
  · exact (θ_run Cert.KernelIdeal.defs _ _).mono (fun r h c => ⟨
      h c _ (Cert.KernelIdeal.Hand.mem_uc Cert.KernelIdeal.main_v36 (by decide)),
      h c _ (Cert.KernelIdeal.Hand.mem_uc Cert.KernelIdeal.main_v37 (by decide)),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c),
      (h c _ (Cert.KernelIdeal.Hand.mem_uc Cert.KernelIdeal.main_arg7 (by decide))).trans (Cert.KernelIdeal.Hand.W5_main_arg7 m c)⟩)
      (Cert.KernelIdeal.Hand.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v50_eq]
      exact first_result m c _ _ _ _ _ _ _ _ (hagree c).1 (hagree c).2.1 (hagree c).2.2.1 (hagree c).2.2.2.1
        (hagree c).2.2.2.2.1 (hagree c).2.2.2.2.2.1 (hagree c).2.2.2.2.2.2.1 (hagree c).2.2.2.2.2.2.2
    · rw [Cert.ReferenceIdeal.Read.val_main_v27_eq]
      exact second_result m c _ _ _ _ _ _ _ (hagree c).1 (hagree c).2.1 (hagree c).2.2.1 (hagree c).2.2.2.1
        (hagree c).2.2.2.2.2.1 (hagree c).2.2.2.2.2.2.1 (hagree c).2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
